-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel

variable [Facts]

def fn {F : FTy → Type} [FloatOps F] (main_arg0 : FVec F S64x4096 .f32) (main_arg1 : FVec F S64x4096 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S64x4096 : Shape := ⟨2, ![64, 4096]⟩
abbrev S64x2048 : Shape := ⟨2, ![64, 2048]⟩
abbrev S16x256 : Shape := ⟨2, ![16, 256]⟩
abbrev S16x2048 : Shape := ⟨2, ![16, 2048]⟩
abbrev S16x256x1 : Shape := ⟨3, ![16, 256, 1]⟩
abbrev S16x1x256 : Shape := ⟨3, ![16, 1, 256]⟩
abbrev S16x256x256 : Shape := ⟨3, ![16, 256, 256]⟩
abbrev S_ : Shape := ⟨0, ![]⟩
abbrev S64 : Shape := ⟨1, ![64]⟩

abbrev nBuf : Space → Nat
  | .hbm => 23
  | .vmem => 12
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x2048, .f32⟩
  | .hbm, ⟨3, _⟩ => ⟨S64x2048, .f32⟩
  | .hbm, ⟨4, _⟩ => ⟨S64x2048, .f32⟩
  | .hbm, ⟨5, _⟩ => ⟨S64x2048, .f32⟩
  | .hbm, ⟨6, _⟩ => ⟨S64x2048, .f32⟩
  | .hbm, ⟨7, _⟩ => ⟨S64x2048, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | .local _ .vmem, ⟨9, _⟩ => ⟨S16x256, .f32⟩
  | .local _ .vmem, ⟨10, _⟩ => ⟨S16x2048, .f32⟩
  | .local _ .vmem, ⟨11, _⟩ => ⟨S16x2048, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c256_i32 : BitVec 32 := 256#32
  let v50 : BitVec 32 := Scalar.muli arg2 c256_i32
  v50
def k0_off1 (i : grid0.Coords) : Fin 2 → Nat :=
  let c0_18 : Index := 0#32
  let arg2 : BitVec 32 := BitVec.ofNat 32 (i 2).val
  let c256_i32 : BitVec 32 := 256#32
  let v50 : BitVec 32 := Scalar.muli arg2 c256_i32
  let v51 : BitVec 32 := v50
  let v52 : Index := Scalar.indexCast v51
  ![0, v52.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S16x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  slices_S64x4096_S64x2048_0_0 : S64x4096.Slices ![0, 0] S64x2048
  slices_S64x4096_S64x2048_0_2048 : S64x4096.Slices ![0, 2048] S64x2048
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S16x256_S16x256x1 : S16x256.ShapeCasts S16x256x1
  shapeCasts_S16x256_S16x1x256 : S16x256.ShapeCasts S16x1x256
  broadcasts_S16x256x1_S16x256x256 : S16x256x1.Broadcasts S16x256x256
  broadcasts_S16x1x256_S16x256x256 : S16x1x256.Broadcasts S16x256x256
  reduces_S16x256x256_S16x256 : S16x256x256.Reduces [1] S16x256
  reduces_S16x256x256_S16x256_2 : S16x256x256.Reduces [2] S16x256
  inb_S16x2048_S16x2048_0_0 : ∀ a, (![0, 0] : Fin 2 → Nat) a + S16x2048.size a ≤ S16x2048.size a
  h_S16x2048 : 0 < S16x2048.numel
  reducesTo_S64x2048_S64_d1 : S64x2048.ReducesTo [1] S64
  h_S_ : 0 < S_.numel
  bcast_S_S64 : S_.BroadcastsInDim S64 (![] : Fin 0 → Fin S64.rank)
  reducesTo_S64_S_d0 : S64.ReducesTo [0] S_
  hrank0 : 0 < grid0.rank
  k0_mult1_dvd : ∀ i : grid0.Coords, 256 ∣ (k0_mult1 i).toNat
  k0_off1_inb : ∀ i : grid0.Coords, ∀ a, (k0_off1 i) a + S16x256.size a ≤ S16x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S64x2048.size a
  hwx0_0 : ∀ i : grid0.Coords, EltTy.bits .f32 = 32 ∨ (Rect.block (s := S64x2048) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S64x2048.size a
  hwx0_1 : ∀ i : grid0.Coords, EltTy.bits .f32 = 32 ∨ (Rect.block (s := S64x2048) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S64x2048.size a
  hwx0_2 : ∀ i : grid0.Coords, EltTy.bits .f32 = 32 ∨ (Rect.block (s := S64x2048) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S64x2048.size a
  hwx0_3 : ∀ i : grid0.Coords, EltTy.bits .f32 = 32 ∨ (Rect.block (s := S64x2048) S16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S64x2048.size a
  hwx0_4 : ∀ i : grid0.Coords, EltTy.bits .f32 = 32 ∨ (Rect.block (s := S64x2048) S16x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x2048.size a ≤ S64x2048.size a
  hwx0_5 : ∀ i : grid0.Coords, EltTy.bits .f32 = 32 ∨ (Rect.block (s := S64x2048) S16x2048.size (cc0_transform_5 i) (hinb0_5 i)).WholeWords (EltTy.packing .f32)

variable [Facts₀]

abbrev win0_0 : Pipeline.Window sig grid0 :=
  Pipeline.Window.ofSpec (Memref.whole main_v0) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S16x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S16x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096 : Shape := ⟨2, ![64, 4096]⟩
abbrev S64x2048 : Shape := ⟨2, ![64, 2048]⟩
abbrev S64x2048x1 : Shape := ⟨3, ![64, 2048, 1]⟩
abbrev S64x2048x2 : Shape := ⟨3, ![64, 2048, 2]⟩
abbrev S_ : Shape := ⟨0, ![]⟩
abbrev S64x2048x2048 : Shape := ⟨3, ![64, 2048, 2048]⟩
abbrev S64x1x2048 : Shape := ⟨3, ![64, 1, 2048]⟩
abbrev S64 : Shape := ⟨1, ![64]⟩

abbrev nBuf : Space → Nat
  | .hbm => 51
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x2048, .f32⟩
  | .hbm, ⟨3, _⟩ => ⟨S64x2048, .f32⟩
  | .hbm, ⟨4, _⟩ => ⟨S64x2048x1, .f32⟩
  | .hbm, ⟨5, _⟩ => ⟨S64x2048x1, .f32⟩
  | .hbm, ⟨6, _⟩ => ⟨S64x2048x2, .f32⟩
  | .hbm, ⟨7, _⟩ => ⟨S64x2048, .f32⟩
  | .hbm, ⟨8, _⟩ => ⟨S64x2048, .f32⟩
  | .hbm, ⟨9, _⟩ => ⟨S64x2048x1, .f32⟩
  | .hbm, ⟨10, _⟩ => ⟨S64x2048x1, .f32⟩
  | .hbm, ⟨11, _⟩ => ⟨S64x2048x2, .f32⟩
  | .hbm, ⟨12, _⟩ => ⟨S64x2048x2, .f32⟩
  | .hbm, ⟨13, _⟩ => ⟨S_, .f32⟩
  | .hbm, ⟨14, _⟩ => ⟨S64x2048, .f32⟩
  | .hbm, ⟨15, _⟩ => ⟨S64x2048x2, .f32⟩
  | .hbm, ⟨16, _⟩ => ⟨S_, .f32⟩
  | .hbm, ⟨17, _⟩ => ⟨S64x2048, .f32⟩
  | .hbm, ⟨18, _⟩ => ⟨S64x2048x2048, .f32⟩
  | .hbm, ⟨19, _⟩ => ⟨S64x2048x1, .f32⟩
  | .hbm, ⟨20, _⟩ => ⟨S64x1x2048, .f32⟩
  | .hbm, ⟨21, _⟩ => ⟨S64x2048x2048, .f32⟩
  | .hbm, ⟨22, _⟩ => ⟨S64x2048x2048, .f32⟩
  | .hbm, ⟨23, _⟩ => ⟨S64x2048x2048, .f32⟩
  | .hbm, ⟨24, _⟩ => ⟨S_, .f32⟩
  | .hbm, ⟨25, _⟩ => ⟨S64x2048x2048, .f32⟩
  | .hbm, ⟨26, _⟩ => ⟨S64x2048x2048, .f32⟩
  | .hbm, ⟨27, _⟩ => ⟨S64x2048x2048, .f32⟩
  | .hbm, ⟨28, _⟩ => ⟨S_, .f32⟩
  | .hbm, ⟨29, _⟩ => ⟨S64x2048x2048, .f32⟩
  | .hbm, ⟨30, _⟩ => ⟨S64x2048x2048, .f32⟩
  | .hbm, ⟨31, _⟩ => ⟨S64x2048x2048, .f32⟩
  | .hbm, ⟨32, _⟩ => ⟨S_, .f32⟩
  | .hbm, ⟨33, _⟩ => ⟨S64x2048, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S_, .f32⟩
  | .hbm, ⟨40, _⟩ => ⟨S64x2048, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_cst_6 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_9 : Ref sig .tc := ⟨.hbm, 47, rfl⟩
abbrev main_v35 : Ref sig .tc := ⟨.hbm, 48, rfl⟩
abbrev main_cst_10 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  slices_S64x4096_S64x2048_0_0 : S64x4096.Slices ![0, 0] S64x2048
  slices_S64x4096_S64x2048_0_2048 : S64x4096.Slices ![0, 2048] S64x2048
  bcast_S64x2048_S64x2048x1_0_1 : S64x2048.BroadcastsInDim S64x2048x1 (![0, 1] : Fin 2 → Fin S64x2048x1.rank)
  concatenates_S64x2048x1_S64x2048x1_S64x2048x2_d2 : Shape.Concatenates [S64x2048x1, S64x2048x1] S64x2048x2 2
  reducesTo_S64x2048x2_S64x2048_d2 : S64x2048x2.ReducesTo [2] S64x2048
  h_S_ : 0 < S_.numel
  bcast_S64x2048_S64x1x2048_0_2 : S64x2048.BroadcastsInDim S64x1x2048 (![0, 2] : Fin 2 → Fin S64x1x2048.rank)
  bcast_S64x2048x1_S64x2048x2048_0_1_2 : S64x2048x1.BroadcastsInDim S64x2048x2048 (![0, 1, 2] : Fin 3 → Fin S64x2048x2048.rank)
  bcast_S64x1x2048_S64x2048x2048_0_1_2 : S64x1x2048.BroadcastsInDim S64x2048x2048 (![0, 1, 2] : Fin 3 → Fin S64x2048x2048.rank)
  bcast_S_S64x2048x2048 : S_.BroadcastsInDim S64x2048x2048 (![] : Fin 0 → Fin S64x2048x2048.rank)
  reducesTo_S64x2048x2048_S64x2048_d1 : S64x2048x2048.ReducesTo [1] S64x2048
  reducesTo_S64x2048_S64_d1 : S64x2048.ReducesTo [1] S64
  bcast_S_S64 : S_.BroadcastsInDim S64 (![] : Fin 0 → Fin S64.rank)
  reducesTo_S64x2048x2048_S64x2048_d2 : S64x2048x2048.ReducesTo [2] S64x2048
  reducesTo_S64_S_d0 : S64.ReducesTo [0] S_
  dot_S64x2048x2_S64x2048x2_S64x2048x2048_2_2_1_1_0_0_wf : DotDims.WF S64x2048x2 S64x2048x2 S64x2048x2048 [2] [2] [1] [1] [0] [0]

variable [Facts₀]

def dot_S64x2048x2_S64x2048x2_S64x2048x2048_2_2_1_1_0_0 : DotDims S64x2048x2 S64x2048x2 S64x2048x2048 where
  lhsContracting := [2]
  rhsContracting := [2]
  lhsNonContracting := [1]
  rhsNonContracting := [1]
  lhsBatch := [0]
  rhsBatch := [0]
  wf := dot_S64x2048x2_S64x2048x2_S64x2048x2048_2_2_1_1_0_0_wf

class Facts : Prop extends Facts₀ where

variable [Facts]
-- ==== Proof.K.Cases.lean ====
/-
  The two conditionals of the kernel body, decided over the grid. The grid is (4, 8, 8): a point is
  t = 64·bb + 8·jb + ib. The first conditional (reset of the min-over-i accumulator) is taken when ib = 0,
  that is t ≡ 0 (mod 8); the second (reset of the whole min-over-j block) when jb = 0 and ib = 0, that is
  t ≡ 0 (mod 64). Also: each window's staging memref at a point, as the pipeline passes it to the body.
-/
import proofs.«105608_j22797686407325_1_alg».proof.Proof.Gen.Kernel.Frame
import proofs.«105608_j22797686407325_1_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-- The first conditional's condition, from the grid coordinates: ib = 0. -/
abbrev condI (i : grid0.Coords) : Prop := (Scalar.cmpi .ne (Scalar.extui (Scalar.cmpi .eq (BitVec.ofNat 32 (i 2).val) 0#32)) 0#32) = 1#1
theorem hcondI : ∀ t : Fin cfg0.N, condI (grid0.coords t) ↔ t.val % 8 = 0 :=
  (by decide +kernel : ∀ t : Fin grid0.N, condI (grid0.coords t) ↔ t.val % 8 = 0)

/-- The second conditional's condition: jb = 0 and ib = 0. -/
abbrev condJI (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcondJI : ∀ t : Fin cfg0.N, condJI (grid0.coords t) ↔ t.val % 64 = 0 :=
  (by decide +kernel : ∀ t : Fin grid0.N, condJI (grid0.coords t) ↔ t.val % 64 = 0)

/-- Each window's current staging memref at point `t`, and its wholeness. -/
abbrev ms0 (t : Fin cfg0.N) : Memref sig .tc .vmem S16x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x2048 .f32 := win0_5.stage (cfg0.slots t 5)
abbrev hs5 (t : Fin cfg0.N) : (ms5 t).IsWhole := hstage0_5 ((cfg0.slots t 5).cast nbuf0_5)

end Cert.Kernel.Hand

end
-- ==== Proof.K.Step.lean ====
/-
  One grid point's effect on the two running minima, as pure functions of the point's four input blocks and of what
  the output blocks held before. The min-over-i block (16 × 256) becomes, elementwise, the minimum of what it held and
  the tile's minima over i. The min-over-j block (16 × 2048) changes only in the 256 columns of the point's i-tile: there
  it becomes the minimum of what it held and the tile's minima over j; elsewhere it keeps what it held. A reset puts +∞
  everywhere first.
-/
import proofs.«105608_j22797686407325_1_alg».proof.Proof.K.Cases
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

/-- The min-over-i block after a point, from what it held before. -/
def acc4 (x0 x1 x2 x3 prev : Vec F S16x256 .f32) : Vec F S16x256 .f32 := k0_pay1 (k0_pay5 x0 x1 x2 x3) prev
/-- The min-over-i block after a reset. -/
def init4 : Vec F S16x256 .f32 := k0_pay7 (F := F)

/-- The columns of the point's i-tile inside the 16 × 2048 block. -/
abbrev colRect (i : grid0.Coords) : Rect S16x2048 := Rect.unit (s := S16x2048) (k0_off1 i) S16x256.size (Gen.k0_off1_inb i)

/-- The min-over-j block after a point, from what it held before: updated in the tile's columns, kept elsewhere. -/
def acc5 (i : grid0.Coords) (x0 x1 x2 x3 : Vec F S16x256 .f32) (prev : Vec F S16x2048 .f32) : Vec F S16x2048 .f32 := fun y =>
  if h : ∀ a, k0_off1 i a ≤ (y a).val ∧ (y a).val < k0_off1 i a + S16x256.size a then
    k0_pay3 (k0_pay6 x0 x1 x2 x3) (View.ld prev (colRect i)) (Rect.unitLocal (s := S16x2048) (off := k0_off1 i) (size := S16x256.size) y h)
  else prev y
/-- The min-over-j block after a reset. -/
def init5 : Vec F S16x2048 .f32 := k0_pay2 (F := F)

/-- The zero offsets of a whole-block access, however spelt. -/
theorem hz2 : (![0, 0] : Fin 2 → ℕ) = fun _ => 0 := funext fun a => by fin_cases a <;> rfl

end Cert.Kernel.Hand

end
-- ==== Proof.K.RunA.lean ====
/-
  The body at a point where both conditionals are taken (jb = 0 and ib = 0, the first point of a batch block): both output blocks are reset before they are read, so each is taken at anything.
-/
import proofs.«105608_j22797686407325_1_alg».proof.Proof.K.Step

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
theorem runA (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x2048 .f32) (harg8 : arg8.IsWhole) (hc0 : condI i) (hc1 : condJI i)
    (x0 x1 x2 x3 : Vec F S16x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare (acc4 x0 x1 x2 x3 (init4 (F := F)))
                ∗ owns (c : Thread nD τ) arg8 fullShare (acc5 i x0 x1 x2 x3 (init5 (F := F)))) -∗ K ⟨⟩))
          ⊢ wp frame (wpE (defs₀ (F := F)) Variants.none c none) E (cc0_chamfer_kernel i arg3 harg3 arg4 harg4 arg5 harg5 arg6 harg6 arg7 harg7 arg8 harg8) K := by
    intro E K
    simp only [cc0_chamfer_kernel_eq_skeleton]; unfold cc0_chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      sl_unfold_run_names
      rw [View.read_writes_eq_canon _ _ _ (fun y => ⟨_, List.mem_cons_self, View.mem_set_unit_zero hz2 Facts₀.inb_S16x256_S16x256_0_0 y⟩), View.canon_cons_unit_zero hz2]
      simp only [View.readAt_eq_ld, harg3.read_unread, harg4.read_unread, harg5.read_unread, harg6.read_unread, View.ld_unit_zero (S := S16x256) hz2, View.readCov_unit_zero (S := S16x256) _ hz2]
      rfl
    iexists _; isplitr; swap; · iexact H5
    ipureintro
    sl_unfold_run_names
    have e : arg8.view.read (Elt F) (arg8.view.writes (Elt F) arg8.view.junk [(⟨Rect.unit (s := S16x2048) ![0, 0] S16x2048.size Facts₀.inb_S16x2048_S16x2048_0_0, k0_pay2 (F := F)⟩ : View.Piece (Elt F) S16x2048 .f32)]) = k0_pay2 (F := F) := by
      rw [View.read_writes_eq_canon _ _ _ (fun y => ⟨_, List.mem_singleton_self _, View.mem_set_unit_zero hz2 Facts₀.inb_S16x2048_S16x2048_0_0 y⟩), View.canon_unit_zero hz2]
    funext y
    rw [View.read_writes_cons_unit arg8.view _ _ _ _ y rfl]
    unfold acc5
    simp only [View.readAt_eq_ld, View.writes_nil, harg3.read_unread, harg4.read_unread, harg5.read_unread, harg6.read_unread, View.ld_unit_zero (S := S16x256) hz2]
    rw [e]
    rfl

end Cert.Kernel.Hand

end
-- ==== Proof.K.RunB.lean ====
/-
  The body at a point where neither conditional is taken (ib ≠ 0): both output blocks are read before they are written, so each is taken at what the point before left in it, and comes back advanced by one step of its running minimum.
-/
import proofs.«105608_j22797686407325_1_alg».proof.Proof.K.Step

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
theorem runB (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x2048 .f32) (harg8 : arg8.IsWhole) (hc0 : ¬condI i) (hc1 : ¬condJI i)
    (x0 x1 x2 x3 xo4 : Vec F S16x256 .f32) (xo5 : Vec F S16x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare (acc4 x0 x1 x2 x3 xo4)
                ∗ owns (c : Thread nD τ) arg8 fullShare (acc5 i x0 x1 x2 x3 xo5)) -∗ K ⟨⟩))
          ⊢ wp frame (wpE (defs₀ (F := F)) Variants.none c none) E (cc0_chamfer_kernel i arg3 harg3 arg4 harg4 arg5 harg5 arg6 harg6 arg7 harg7 arg8 harg8) K := by
    intro E K
    simp only [cc0_chamfer_kernel_eq_skeleton]; unfold cc0_chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      sl_unfold_run_names
      rw [View.read_writes_eq_canon _ _ _ (fun y => ⟨_, List.mem_singleton_self _, View.mem_set_unit_zero hz2 Facts₀.inb_S16x256_S16x256_0_0 y⟩), View.canon_unit_zero hz2]
      simp only [View.readAt_eq_ld, harg3.read_unread, harg4.read_unread, harg5.read_unread, harg6.read_unread, harg7.read_unread, View.ld_unit_zero (S := S16x256) hz2]
      rfl
    iexists _; isplitr; swap; · iexact H5
    ipureintro
    sl_unfold_run_names
    funext y
    rw [View.read_writes_cons_unit arg8.view _ _ _ [] y rfl]
    unfold acc5
    simp only [View.readAt_eq_ld, View.writes_nil, harg3.read_unread, harg4.read_unread, harg5.read_unread, harg6.read_unread, harg8.read_unread, View.ld_unit_zero (S := S16x256) hz2]

end Cert.Kernel.Hand

end
-- ==== Proof.K.RunC.lean ====
/-
  The body at a point where the first conditional is taken and the second is not (ib = 0, jb ≠ 0): the min-over-i block is reset before it is read, so it is taken at anything; the min-over-j block is taken at what the point before left in it.
-/
import proofs.«105608_j22797686407325_1_alg».proof.Proof.K.Step

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

set_option maxHeartbeats 1000000 in
theorem runC (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x2048 .f32) (harg8 : arg8.IsWhole) (hc0 : condI i) (hc1 : ¬condJI i)
    (x0 x1 x2 x3 : Vec F S16x256 .f32) (xo5 : Vec F S16x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare (acc4 x0 x1 x2 x3 (init4 (F := F)))
                ∗ owns (c : Thread nD τ) arg8 fullShare (acc5 i x0 x1 x2 x3 xo5)) -∗ K ⟨⟩))
          ⊢ wp frame (wpE (defs₀ (F := F)) Variants.none c none) E (cc0_chamfer_kernel i arg3 harg3 arg4 harg4 arg5 harg5 arg6 harg6 arg7 harg7 arg8 harg8) K := by
    intro E K
    simp only [cc0_chamfer_kernel_eq_skeleton]; unfold cc0_chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg3.eq_unread hf0; obtain rfl := harg4.eq_unread hf1; obtain rfl := harg5.eq_unread hf2; obtain rfl := harg6.eq_unread hf3
    obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      sl_unfold_run_names
      rw [View.read_writes_eq_canon _ _ _ (fun y => ⟨_, List.mem_cons_self, View.mem_set_unit_zero hz2 Facts₀.inb_S16x256_S16x256_0_0 y⟩), View.canon_cons_unit_zero hz2]
      simp only [View.readAt_eq_ld, harg3.read_unread, harg4.read_unread, harg5.read_unread, harg6.read_unread, View.ld_unit_zero (S := S16x256) hz2, View.readCov_unit_zero (S := S16x256) _ hz2]
      rfl
    iexists _; isplitr; swap; · iexact H5
    ipureintro
    sl_unfold_run_names
    funext y
    rw [View.read_writes_cons_unit arg8.view _ _ _ [] y rfl]
    unfold acc5
    simp only [View.readAt_eq_ld, View.writes_nil, harg3.read_unread, harg4.read_unread, harg5.read_unread, harg6.read_unread, harg8.read_unread, View.ld_unit_zero (S := S16x256) hz2]

end Cert.Kernel.Hand

end
-- ==== Proof.K.Frame.lean ====
/-
  The frame of the program around its one pipelined region, with every output block NAMED point by point.

  The grid is (4, 8, 8), a point t = 64·bb + 8·jb + ib. After the body at point t the min-over-i block holds the
  running minimum over the i-tiles 0..ib of the current (bb, jb), and the min-over-j block the running minima over the
  j-tiles met so far in the current bb, one 256-column stretch per i-tile: `outs`, by recursion on the point — at a
  reset point from +∞, else from what the point before left (the block is not written back in between: the
  min-over-i block is written back after ib = 7, the min-over-j block after jb = ib = 7). The body's triple is by cases
  on the two conditionals; the launch and @main around the region are the library's.
-/
import proofs.«105608_j22797686407325_1_alg».proof.Proof.K.RunA
import proofs.«105608_j22797686407325_1_alg».proof.Proof.K.RunB
import proofs.«105608_j22797686407325_1_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-- The four input blocks at a point, at their literal type. -/
abbrev xb0 (c : Dev nD) (t : Fin cfg0.N) : Vec F S16x256 .f32 := iblk m c 0 t
abbrev xb1 (c : Dev nD) (t : Fin cfg0.N) : Vec F S16x256 .f32 := iblk m c 1 t
abbrev xb2 (c : Dev nD) (t : Fin cfg0.N) : Vec F S16x256 .f32 := iblk m c 2 t
abbrev xb3 (c : Dev nD) (t : Fin cfg0.N) : Vec F S16x256 .f32 := iblk m c 3 t

/-- What the two output blocks hold after the body at position `n`. -/
def outs (c : Dev nD) : (n : ℕ) → n < cfg0.N → Vec F S16x256 .f32 × Vec F S16x2048 .f32
  | 0, hn => (acc4 (xb0 m c ⟨0, hn⟩) (xb1 m c ⟨0, hn⟩) (xb2 m c ⟨0, hn⟩) (xb3 m c ⟨0, hn⟩) (init4 (F := F)),
      acc5 (grid0.coords ⟨0, hn⟩) (xb0 m c ⟨0, hn⟩) (xb1 m c ⟨0, hn⟩) (xb2 m c ⟨0, hn⟩) (xb3 m c ⟨0, hn⟩) (init5 (F := F)))
  | n + 1, hn =>
    (acc4 (xb0 m c ⟨n + 1, hn⟩) (xb1 m c ⟨n + 1, hn⟩) (xb2 m c ⟨n + 1, hn⟩) (xb3 m c ⟨n + 1, hn⟩)
        (if (n + 1) % 8 = 0 then init4 (F := F) else (outs c n (Nat.lt_of_succ_lt hn)).1),
      acc5 (grid0.coords ⟨n + 1, hn⟩) (xb0 m c ⟨n + 1, hn⟩) (xb1 m c ⟨n + 1, hn⟩) (xb2 m c ⟨n + 1, hn⟩) (xb3 m c ⟨n + 1, hn⟩)
        (if (n + 1) % 64 = 0 then init5 (F := F) else (outs c n (Nat.lt_of_succ_lt hn)).2))

/-- What each block is advanced FROM at point `t`: +∞ at its reset points, else what the point before left. -/
def from4 (c : Dev nD) (t : Fin cfg0.N) : Vec F S16x256 .f32 :=
  if t.val % 8 = 0 then init4 (F := F) else (outs m c (t.val - 1) (Nat.lt_of_le_of_lt (Nat.sub_le _ _) t.isLt)).1
def from5 (c : Dev nD) (t : Fin cfg0.N) : Vec F S16x2048 .f32 :=
  if t.val % 64 = 0 then init5 (F := F) else (outs m c (t.val - 1) (Nat.lt_of_le_of_lt (Nat.sub_le _ _) t.isLt)).2

/-- `outs` at any point, in one equation. -/
theorem outs_eq (c : Dev nD) (t : Fin cfg0.N) :
    outs m c t.val t.isLt = (acc4 (xb0 m c t) (xb1 m c t) (xb2 m c t) (xb3 m c t) (from4 m c t),
      acc5 (grid0.coords t) (xb0 m c t) (xb1 m c t) (xb2 m c t) (xb3 m c t) (from5 m c t)) := by
  obtain ⟨n, hn⟩ := t
  cases n with
  | zero => unfold from4 from5; rw [if_pos (Nat.zero_mod _), if_pos (Nat.zero_mod _)]; rfl
  | succ n => rfl

/-! ## The proof data -/

/-- The arrays as the region finds them; after the body at a point each input's buffer at its block and the two
    outputs' at `outs`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outs m c t.val t.isLt).1
    | ⟨5, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outs m c t.val t.isLt).1 := by dsimp only [dats]
theorem after5 (c : Dev nD) (t : Fin cfg0.N) : (dats m 0 c).after 5 t = (outs m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Off its reset points the min-over-i block's buffer holds what the body left at the point before: the block is
    written back only after ib = 7. -/
theorem before4_kept (c : Dev nD) (t : Fin cfg0.N) (h0 : ¬t.val % 8 = 0) (d) :
    (dats m 0 c).before 4 t d = (outs m c (t.val - 1) (Nat.lt_of_le_of_lt (Nat.sub_le _ _) t.isLt)).1 := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [dats]

/-- Off its reset points the min-over-j block's buffer holds what the body left at the point before: the block is
    written back only after jb = ib = 7. -/
theorem before5_kept (c : Dev nD) (t : Fin cfg0.N) (h1 : ¬t.val % 64 = 0) (d) :
    (dats m 0 c).before 5 t d = (outs m c (t.val - 1) (Nat.lt_of_le_of_lt (Nat.sub_le _ _) t.isLt)).2 := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1200000 in
/-- The body at any point: the inputs' buffers hold their blocks; the point's residues mod 8 and mod 64 say which
    conditionals are taken; an output block read before it is written holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, outs_eq m c t]
  dsimp only
  have hN : t.val < 256 := lt_of_lt_of_eq t.isLt (show cfg0.N = 256 from N_0)
  by_cases h0 : t.val % 8 = 0
  · by_cases h1 : t.val % 64 = 0
    · rw [show from4 m c t = init4 (F := F) from if_pos h0, show from5 m c t = init5 (F := F) from if_pos h1]
      iintro ⟨HΦ, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ ((hcondI t).mpr h0) ((hcondJI t).mpr h1) (xb0 m c t) (xb1 m c t) (xb2 m c t) (xb3 m c t)) Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [show from4 m c t = init4 (F := F) from if_pos h0,
        show from5 m c t = (outs m c (t.val - 1) (Nat.lt_of_le_of_lt (Nat.sub_le _ _) t.isLt)).2 from if_neg h1]
      simp only [before5_kept m c t h1]
      iintro ⟨HΦ, Ho, ⟨%d0, H0⟩, ⟨%d1, H1⟩, ⟨%d2, H2⟩, ⟨%d3, H3⟩, ⟨%d4, H4⟩, ⟨%d5, H5⟩⟩
      iapply ((runC c (grid0.coords t) _ _ _ _ _ _ _ _ _ _ _ _ ((hcondI t).mpr h0) (fun h => h1 ((hcondJI t).mp h)) (xb0 m c t) (xb1 m c t) (xb2 m c t) (xb3 m c t) _) Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
  · have h1 : ¬t.val % 64 = 0 := fun h => h0 (by omega)
    rw [show from4 m c t = (outs m c (t.val - 1) (Nat.lt_of_le_of_lt (Nat.sub_le _ _) t.isLt)).1 from if_neg h0,
      show from5 m c t = (outs m c (t.val - 1) (Nat.lt_of_le_of_lt (Nat.sub_le _ _) t.isLt)).2 from if_neg h1]
    simp only [before4_kept m c t h0, before5_kept m c t h1]
    iintro ⟨HΦ, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ (fun h => h0 ((hcondI t).mp h)) (fun h => h1 ((hcondJI t).mp h)) (xb0 m c t) (xb1 m c t) (xb2 m c t) (xb3 m c t) _ _) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes
    from the proof data, every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KI.Cases.lean ====
/-
  The two conditionals of the kernel body, decided over the grid. The grid is (4, 8, 8): a point is
  t = 64·bb + 8·jb + ib. The first conditional (reset of the min-over-i accumulator) is taken when ib = 0,
  that is t ≡ 0 (mod 8); the second (reset of the whole min-over-j block) when jb = 0 and ib = 0, that is
  t ≡ 0 (mod 64). Also: each window's staging memref at a point, as the pipeline passes it to the body.
-/
import proofs.«105608_j22797686407325_1_alg».proof.Proof.Gen.KernelIdeal.Frame
import proofs.«105608_j22797686407325_1_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The first conditional's condition, from the grid coordinates: ib = 0. -/
abbrev condI (i : grid0.Coords) : Prop := (Scalar.cmpi .ne (Scalar.extui (Scalar.cmpi .eq (BitVec.ofNat 32 (i 2).val) 0#32)) 0#32) = 1#1
theorem hcondI : ∀ t : Fin cfg0.N, condI (grid0.coords t) ↔ t.val % 8 = 0 :=
  (by decide +kernel : ∀ t : Fin grid0.N, condI (grid0.coords t) ↔ t.val % 8 = 0)

/-- The second conditional's condition: jb = 0 and ib = 0. -/
abbrev condJI (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
theorem hcondJI : ∀ t : Fin cfg0.N, condJI (grid0.coords t) ↔ t.val % 64 = 0 :=
  (by decide +kernel : ∀ t : Fin grid0.N, condJI (grid0.coords t) ↔ t.val % 64 = 0)

/-- Each window's current staging memref at point `t`, and its wholeness. -/
abbrev ms0 (t : Fin cfg0.N) : Memref sig .tc .vmem S16x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S16x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x2048 .f32 := win0_5.stage (cfg0.slots t 5)
abbrev hs5 (t : Fin cfg0.N) : (ms5 t).IsWhole := hstage0_5 ((cfg0.slots t 5).cast nbuf0_5)

end Cert.KernelIdeal.Hand

end
-- ==== Proof.KI.Step.lean ====
/-
  One grid point's effect on the two running minima, as pure functions of the point's four input blocks and of what
  the output blocks held before. The min-over-i block (16 × 256) becomes, elementwise, the minimum of what it held and
  the tile's minima over i. The min-over-j block (16 × 2048) changes only in the 256 columns of the point's i-tile: there
  it becomes the minimum of what it held and the tile's minima over j; elsewhere it keeps what it held. A reset puts +∞
  everywhere first.
-/
import proofs.«105608_j22797686407325_1_alg».proof.Proof.KI.Cases
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

/-- The min-over-i block after a point, from what it held before. -/
def acc4 (x0 x1 x2 x3 prev : Vec F S16x256 .f32) : Vec F S16x256 .f32 := k0_pay1 (k0_pay5 x0 x1 x2 x3) prev
/-- The min-over-i block after a reset. -/
def init4 : Vec F S16x256 .f32 := k0_pay7 (F := F)

/-- The columns of the point's i-tile inside the 16 × 2048 block. -/
abbrev colRect (i : grid0.Coords) : Rect S16x2048 := Rect.unit (s := S16x2048) (k0_off1 i) S16x256.size (Gen.k0_off1_inb i)

/-- The min-over-j block after a point, from what it held before: updated in the tile's columns, kept elsewhere. -/
def acc5 (i : grid0.Coords) (x0 x1 x2 x3 : Vec F S16x256 .f32) (prev : Vec F S16x2048 .f32) : Vec F S16x2048 .f32 := fun y =>
  if h : ∀ a, k0_off1 i a ≤ (y a).val ∧ (y a).val < k0_off1 i a + S16x256.size a then
    k0_pay3 (k0_pay6 x0 x1 x2 x3) (View.ld prev (colRect i)) (Rect.unitLocal (s := S16x2048) (off := k0_off1 i) (size := S16x256.size) y h)
  else prev y
/-- The min-over-j block after a reset. -/
def init5 : Vec F S16x2048 .f32 := k0_pay2 (F := F)

/-- The zero offsets of a whole-block access, however spelt. -/
theorem hz2 : (![0, 0] : Fin 2 → ℕ) = fun _ => 0 := funext fun a => by fin_cases a <;> rfl

end Cert.KernelIdeal.Hand

end
-- ==== Proof.KI.RunA.lean ====
/-
  The body at a point where both conditionals are taken (jb = 0 and ib = 0, the first point of a batch block): both output blocks are reset before they are read, so each is taken at anything.
-/
import proofs.«105608_j22797686407325_1_alg».proof.Proof.KI.Step

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
theorem runA (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x2048 .f32) (harg8 : arg8.IsWhole) (hc0 : condI i) (hc1 : condJI i)
    (x0 x1 x2 x3 : Vec F S16x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare (acc4 x0 x1 x2 x3 (init4 (F := F)))
                ∗ owns (c : Thread nD τ) arg8 fullShare (acc5 i x0 x1 x2 x3 (init5 (F := F)))) -∗ K ⟨⟩))
          ⊢ wp frame (wpE (defs₀ (F := F)) Variants.none c none) E (cc0_chamfer_kernel i arg3 harg3 arg4 harg4 arg5 harg5 arg6 harg6 arg7 harg7 arg8 harg8) K := by
    intro E K
    simp only [cc0_chamfer_kernel_eq_skeleton]; unfold cc0_chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      sl_unfold_run_names
      rw [View.read_writes_eq_canon _ _ _ (fun y => ⟨_, List.mem_cons_self, View.mem_set_unit_zero hz2 Facts₀.inb_S16x256_S16x256_0_0 y⟩), View.canon_cons_unit_zero hz2]
      simp only [View.readAt_eq_ld, harg3.read_unread, harg4.read_unread, harg5.read_unread, harg6.read_unread, View.ld_unit_zero (S := S16x256) hz2, View.readCov_unit_zero (S := S16x256) _ hz2]
      rfl
    iexists _; isplitr; swap; · iexact H5
    ipureintro
    sl_unfold_run_names
    have e : arg8.view.read (Elt F) (arg8.view.writes (Elt F) arg8.view.junk [(⟨Rect.unit (s := S16x2048) ![0, 0] S16x2048.size Facts₀.inb_S16x2048_S16x2048_0_0, k0_pay2 (F := F)⟩ : View.Piece (Elt F) S16x2048 .f32)]) = k0_pay2 (F := F) := by
      rw [View.read_writes_eq_canon _ _ _ (fun y => ⟨_, List.mem_singleton_self _, View.mem_set_unit_zero hz2 Facts₀.inb_S16x2048_S16x2048_0_0 y⟩), View.canon_unit_zero hz2]
    funext y
    rw [View.read_writes_cons_unit arg8.view _ _ _ _ y rfl]
    unfold acc5
    simp only [View.readAt_eq_ld, View.writes_nil, harg3.read_unread, harg4.read_unread, harg5.read_unread, harg6.read_unread, View.ld_unit_zero (S := S16x256) hz2]
    rw [e]
    rfl

end Cert.KernelIdeal.Hand

end
-- ==== Proof.KI.RunB.lean ====
/-
  The body at a point where neither conditional is taken (ib ≠ 0): both output blocks are read before they are written, so each is taken at what the point before left in it, and comes back advanced by one step of its running minimum.
-/
import proofs.«105608_j22797686407325_1_alg».proof.Proof.KI.Step

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
theorem runB (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x2048 .f32) (harg8 : arg8.IsWhole) (hc0 : ¬condI i) (hc1 : ¬condJI i)
    (x0 x1 x2 x3 xo4 : Vec F S16x256 .f32) (xo5 : Vec F S16x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo4 ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare (acc4 x0 x1 x2 x3 xo4)
                ∗ owns (c : Thread nD τ) arg8 fullShare (acc5 i x0 x1 x2 x3 xo5)) -∗ K ⟨⟩))
          ⊢ wp frame (wpE (defs₀ (F := F)) Variants.none c none) E (cc0_chamfer_kernel i arg3 harg3 arg4 harg4 arg5 harg5 arg6 harg6 arg7 harg7 arg8 harg8) K := by
    intro E K
    simp only [cc0_chamfer_kernel_eq_skeleton]; unfold cc0_chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg3.eq_unread hf0; obtain rfl := harg4.eq_unread hf1; obtain rfl := harg5.eq_unread hf2; obtain rfl := harg6.eq_unread hf3
    obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      sl_unfold_run_names
      rw [View.read_writes_eq_canon _ _ _ (fun y => ⟨_, List.mem_singleton_self _, View.mem_set_unit_zero hz2 Facts₀.inb_S16x256_S16x256_0_0 y⟩), View.canon_unit_zero hz2]
      simp only [View.readAt_eq_ld, harg3.read_unread, harg4.read_unread, harg5.read_unread, harg6.read_unread, harg7.read_unread, View.ld_unit_zero (S := S16x256) hz2]
      rfl
    iexists _; isplitr; swap; · iexact H5
    ipureintro
    sl_unfold_run_names
    funext y
    rw [View.read_writes_cons_unit arg8.view _ _ _ [] y rfl]
    unfold acc5
    simp only [View.readAt_eq_ld, View.writes_nil, harg3.read_unread, harg4.read_unread, harg5.read_unread, harg6.read_unread, harg8.read_unread, View.ld_unit_zero (S := S16x256) hz2]

end Cert.KernelIdeal.Hand

end
-- ==== Proof.KI.RunC.lean ====
/-
  The body at a point where the first conditional is taken and the second is not (ib = 0, jb ≠ 0): the min-over-i block is reset before it is read, so it is taken at anything; the min-over-j block is taken at what the point before left in it.
-/
import proofs.«105608_j22797686407325_1_alg».proof.Proof.KI.Step

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

set_option maxHeartbeats 1000000 in
theorem runC (c : Dev nD) (i : grid0.Coords) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x2048 .f32) (harg8 : arg8.IsWhole) (hc0 : condI i) (hc1 : ¬condJI i)
    (x0 x1 x2 x3 : Vec F S16x256 .f32) (xo5 : Vec F S16x2048 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xo5
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare (acc4 x0 x1 x2 x3 (init4 (F := F)))
                ∗ owns (c : Thread nD τ) arg8 fullShare (acc5 i x0 x1 x2 x3 xo5)) -∗ K ⟨⟩))
          ⊢ wp frame (wpE (defs₀ (F := F)) Variants.none c none) E (cc0_chamfer_kernel i arg3 harg3 arg4 harg4 arg5 harg5 arg6 harg6 arg7 harg7 arg8 harg8) K := by
    intro E K
    simp only [cc0_chamfer_kernel_eq_skeleton]; unfold cc0_chamfer_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg3.eq_unread hf0; obtain rfl := harg4.eq_unread hf1; obtain rfl := harg5.eq_unread hf2; obtain rfl := harg6.eq_unread hf3
    obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; swap; · iexact H4
      ipureintro
      sl_unfold_run_names
      rw [View.read_writes_eq_canon _ _ _ (fun y => ⟨_, List.mem_cons_self, View.mem_set_unit_zero hz2 Facts₀.inb_S16x256_S16x256_0_0 y⟩), View.canon_cons_unit_zero hz2]
      simp only [View.readAt_eq_ld, harg3.read_unread, harg4.read_unread, harg5.read_unread, harg6.read_unread, View.ld_unit_zero (S := S16x256) hz2, View.readCov_unit_zero (S := S16x256) _ hz2]
      rfl
    iexists _; isplitr; swap; · iexact H5
    ipureintro
    sl_unfold_run_names
    funext y
    rw [View.read_writes_cons_unit arg8.view _ _ _ [] y rfl]
    unfold acc5
    simp only [View.readAt_eq_ld, View.writes_nil, harg3.read_unread, harg4.read_unread, harg5.read_unread, harg6.read_unread, harg8.read_unread, View.ld_unit_zero (S := S16x256) hz2]

end Cert.KernelIdeal.Hand

end
-- ==== Proof.KI.Frame.lean ====
/-
  The frame of the program around its one pipelined region, with every output block NAMED point by point.

  The grid is (4, 8, 8), a point t = 64·bb + 8·jb + ib. After the body at point t the min-over-i block holds the
  running minimum over the i-tiles 0..ib of the current (bb, jb), and the min-over-j block the running minima over the
  j-tiles met so far in the current bb, one 256-column stretch per i-tile: `outs`, by recursion on the point — at a
  reset point from +∞, else from what the point before left (the block is not written back in between: the
  min-over-i block is written back after ib = 7, the min-over-j block after jb = ib = 7). The body's triple is by cases
  on the two conditionals; the launch and @main around the region are the library's.
-/
import proofs.«105608_j22797686407325_1_alg».proof.Proof.KI.RunA
import proofs.«105608_j22797686407325_1_alg».proof.Proof.KI.RunB
import proofs.«105608_j22797686407325_1_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-- The four input blocks at a point, at their literal type. -/
abbrev xb0 (c : Dev nD) (t : Fin cfg0.N) : Vec F S16x256 .f32 := iblk m c 0 t
abbrev xb1 (c : Dev nD) (t : Fin cfg0.N) : Vec F S16x256 .f32 := iblk m c 1 t
abbrev xb2 (c : Dev nD) (t : Fin cfg0.N) : Vec F S16x256 .f32 := iblk m c 2 t
abbrev xb3 (c : Dev nD) (t : Fin cfg0.N) : Vec F S16x256 .f32 := iblk m c 3 t

/-- What the two output blocks hold after the body at position `n`. -/
def outs (c : Dev nD) : (n : ℕ) → n < cfg0.N → Vec F S16x256 .f32 × Vec F S16x2048 .f32
  | 0, hn => (acc4 (xb0 m c ⟨0, hn⟩) (xb1 m c ⟨0, hn⟩) (xb2 m c ⟨0, hn⟩) (xb3 m c ⟨0, hn⟩) (init4 (F := F)),
      acc5 (grid0.coords ⟨0, hn⟩) (xb0 m c ⟨0, hn⟩) (xb1 m c ⟨0, hn⟩) (xb2 m c ⟨0, hn⟩) (xb3 m c ⟨0, hn⟩) (init5 (F := F)))
  | n + 1, hn =>
    (acc4 (xb0 m c ⟨n + 1, hn⟩) (xb1 m c ⟨n + 1, hn⟩) (xb2 m c ⟨n + 1, hn⟩) (xb3 m c ⟨n + 1, hn⟩)
        (if (n + 1) % 8 = 0 then init4 (F := F) else (outs c n (Nat.lt_of_succ_lt hn)).1),
      acc5 (grid0.coords ⟨n + 1, hn⟩) (xb0 m c ⟨n + 1, hn⟩) (xb1 m c ⟨n + 1, hn⟩) (xb2 m c ⟨n + 1, hn⟩) (xb3 m c ⟨n + 1, hn⟩)
        (if (n + 1) % 64 = 0 then init5 (F := F) else (outs c n (Nat.lt_of_succ_lt hn)).2))

/-- What each block is advanced FROM at point `t`: +∞ at its reset points, else what the point before left. -/
def from4 (c : Dev nD) (t : Fin cfg0.N) : Vec F S16x256 .f32 :=
  if t.val % 8 = 0 then init4 (F := F) else (outs m c (t.val - 1) (Nat.lt_of_le_of_lt (Nat.sub_le _ _) t.isLt)).1
def from5 (c : Dev nD) (t : Fin cfg0.N) : Vec F S16x2048 .f32 :=
  if t.val % 64 = 0 then init5 (F := F) else (outs m c (t.val - 1) (Nat.lt_of_le_of_lt (Nat.sub_le _ _) t.isLt)).2

/-- `outs` at any point, in one equation. -/
theorem outs_eq (c : Dev nD) (t : Fin cfg0.N) :
    outs m c t.val t.isLt = (acc4 (xb0 m c t) (xb1 m c t) (xb2 m c t) (xb3 m c t) (from4 m c t),
      acc5 (grid0.coords t) (xb0 m c t) (xb1 m c t) (xb2 m c t) (xb3 m c t) (from5 m c t)) := by
  obtain ⟨n, hn⟩ := t
  cases n with
  | zero => unfold from4 from5; rw [if_pos (Nat.zero_mod _), if_pos (Nat.zero_mod _)]; rfl
  | succ n => rfl

/-! ## The proof data -/

/-- The arrays as the region finds them; after the body at a point each input's buffer at its block and the two
    outputs' at `outs`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outs m c t.val t.isLt).1
    | ⟨5, _⟩ => (outs m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outs m c t.val t.isLt).1 := by dsimp only [dats]
theorem after5 (c : Dev nD) (t : Fin cfg0.N) : (dats m 0 c).after 5 t = (outs m c t.val t.isLt).2 := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- Off its reset points the min-over-i block's buffer holds what the body left at the point before: the block is
    written back only after ib = 7. -/
theorem before4_kept (c : Dev nD) (t : Fin cfg0.N) (h0 : ¬t.val % 8 = 0) (d) :
    (dats m 0 c).before 4 t d = (outs m c (t.val - 1) (Nat.lt_of_le_of_lt (Nat.sub_le _ _) t.isLt)).1 := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [dats]

/-- Off its reset points the min-over-j block's buffer holds what the body left at the point before: the block is
    written back only after jb = ib = 7. -/
theorem before5_kept (c : Dev nD) (t : Fin cfg0.N) (h1 : ¬t.val % 64 = 0) (d) :
    (dats m 0 c).before 5 t d = (outs m c (t.val - 1) (Nat.lt_of_le_of_lt (Nat.sub_le _ _) t.isLt)).2 := by
  have hN : t.val < 256 := lt_of_lt_of_eq t.isLt (show cfg0.N = 256 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1200000 in
/-- The body at any point: the inputs' buffers hold their blocks; the point's residues mod 8 and mod 64 say which
    conditionals are taken; an output block read before it is written holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5, outs_eq m c t]
  dsimp only
  have hN : t.val < 256 := lt_of_lt_of_eq t.isLt (show cfg0.N = 256 from N_0)
  by_cases h0 : t.val % 8 = 0
  · by_cases h1 : t.val % 64 = 0
    · rw [show from4 m c t = init4 (F := F) from if_pos h0, show from5 m c t = init5 (F := F) from if_pos h1]
      iintro ⟨HΦ, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ ((hcondI t).mpr h0) ((hcondJI t).mpr h1) (xb0 m c t) (xb1 m c t) (xb2 m c t) (xb3 m c t)) Set.univ _)
      isplitl [H0]; · iexact H0
      isplitl [H1]; · iexact H1
      isplitl [H2]; · iexact H2
      isplitl [H3]; · iexact H3
      isplitl [H4]; · iexists _; iexact H4
      isplitl [H5]; · iexists _; iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
    · rw [show from4 m c t = init4 (F := F) from if_pos h0,
        show from5 m c t = (outs m c (t.val - 1) (Nat.lt_of_le_of_lt (Nat.sub_le _ _) t.isLt)).2 from if_neg h1]
      simp only [before5_kept m c t h1]
      iintro ⟨HΦ, Ho, ⟨%d0, H0⟩, ⟨%d1, H1⟩, ⟨%d2, H2⟩, ⟨%d3, H3⟩, ⟨%d4, H4⟩, ⟨%d5, H5⟩⟩
      iapply ((runC c (grid0.coords t) _ _ _ _ _ _ _ _ _ _ _ _ ((hcondI t).mpr h0) (fun h => h1 ((hcondJI t).mp h)) (xb0 m c t) (xb1 m c t) (xb2 m c t) (xb3 m c t) _) Set.univ _)
      isplitl [H0]; · iexact H0
      isplitl [H1]; · iexact H1
      isplitl [H2]; · iexact H2
      isplitl [H3]; · iexact H3
      isplitl [H4]; · iexists _; iexact H4
      isplitl [H5]; · iexact H5
      iintro ⟨H0, H1, H2, H3, H4, H5⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      iexact H5
  · have h1 : ¬t.val % 64 = 0 := fun h => h0 (by omega)
    rw [show from4 m c t = (outs m c (t.val - 1) (Nat.lt_of_le_of_lt (Nat.sub_le _ _) t.isLt)).1 from if_neg h0,
      show from5 m c t = (outs m c (t.val - 1) (Nat.lt_of_le_of_lt (Nat.sub_le _ _) t.isLt)).2 from if_neg h1]
    simp only [before4_kept m c t h0, before5_kept m c t h1]
    iintro ⟨HΦ, Ho, ⟨%d0, H0⟩, ⟨%d1, H1⟩, ⟨%d2, H2⟩, ⟨%d3, H3⟩, ⟨%d4, H4⟩, ⟨%d5, H5⟩⟩
    iapply ((runB c (grid0.coords t) _ _ _ _ _ _ _ _ _ _ _ _ (fun h => h0 ((hcondI t).mp h)) (fun h => h1 ((hcondJI t).mp h)) (xb0 m c t) (xb1 m c t) (xb2 m c t) (xb3 m c t) _ _) Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes
    from the proof data, every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/-
  The Chamfer distance, as functions on the extended reals.

  Each row b of the two argument arrays (64 × 4096) holds 2048 tokens of two features: token i of a row is
  (row[i], row[2048 + i]). The cost of a pair (token i of the first array, token j of the second) is the
  Euclidean distance in the expanded form sqrt(max((|p|² + |t|²) − 2·⟨p, t⟩, 0)). The two reductions are, per row,
  the minimum over the first array's tokens for every token of the second, and the minimum over the second array's
  tokens for every token of the first. A minimum over a finite set on the extended reals is `Finset.inf`, whose
  value on the empty set is ⊤ = +∞: the value both programs start their reductions from.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- The argument arrays' shape and the shape of the two arrays of minima. -/
abbrev SArg : Shape := ⟨2, ![64, 4096]⟩
abbrev SMin : Shape := ⟨2, ![64, 2048]⟩

/-- Token i's first feature sits at column i, its second at column 2048 + i. -/
def lo (i : Fin 2048) : Fin 4096 := ⟨i.val, by omega⟩
def hi (i : Fin 2048) : Fin 4096 := ⟨2048 + i.val, by omega⟩

/-- The cost of one pair of tokens (p₁, p₂) and (t₁, t₂): sqrt(max((|p|² + |t|²) − 2·⟨p, t⟩, 0)). The literals are the
    programs' own words for 2 and 0, the same in both, never evaluated. -/
def pairCost (p₁ p₂ t₁ t₂ : EReal) : EReal :=
  Ideal.sqrt (max (((p₁ * p₁ + p₂ * p₂) + (t₁ * t₁ + t₂ * t₂)) - Ideal.ofBits .f32 0x40000000#32 * (p₁ * t₁ + p₂ * t₂))
    (Ideal.ofBits .f32 0x00000000#32))

/-- The cost between token i of row b of P and token j of row b of T. -/
def cost (P T : SArg.Idx → EReal) (b : Fin 64) (i j : Fin 2048) : EReal :=
  pairCost (P (ix2 b (lo i))) (P (ix2 b (hi i))) (T (ix2 b (lo j))) (T (ix2 b (hi j)))

/-- At (b, j): the minimum over the tokens i of P's row b of the cost to token j of T's row b. -/
def minOverFirst (P T : SArg.Idx → EReal) : SMin.Idx → EReal :=
  fun y => Finset.univ.inf fun i : Fin 2048 => cost P T (y 0) i (y 1)

/-- At (b, i): the minimum over the tokens j of T's row b of the cost from token i of P's row b. -/
def minOverSecond (P T : SArg.Idx → EReal) : SMin.Idx → EReal :=
  fun y => Finset.univ.inf fun j : Fin 2048 => cost P T (y 0) (y 1) j

/-- The word both programs start a minimum from is +∞, the top of the extended reals. -/
theorem ofBits_inf : Ideal.ofBits .f32 0x7F800000#32 = (⊤ : EReal) := by simp [Ideal.ofBits, Ideal.ieee]

/-- A fold of `min` from ⊤ over a finite set is the set's infimum. -/
theorem fold_min_top {ι : Type} (s : Finset ι) (f : ι → EReal) : s.fold min (⊤ : EReal) f = s.inf f := rfl

end Cert.Chamfer

end
-- ==== Proof.KI.Index.lean ====
/-
  Coordinates of a grid point. A point of the (4, 8, 8) grid is t = 64·bb + 8·jb + ib with bb = t / 64,
  jb = t / 8 mod 8, ib = t mod 8. Row r of a 16-row block at t is row 16·bb + r of the arrays; column q of a
  256-column block is token 256·ib + q along the first array's tokens, 256·jb + q along the second's.
-/
import proofs.«105608_j22797686407325_1_alg».proof.Proof.KI.Cases
import proofs.«105608_j22797686407325_1_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

theorem lt256 (t : Fin cfg0.N) : t.val < 256 := lt_of_lt_of_eq t.isLt (show cfg0.N = 256 from N_0)

/-- The array row of row `r` of a block at point `t`. -/
def rowOf (t : Fin cfg0.N) (r : Fin 16) : Fin 64 := ⟨16 * (t.val / 64) + r.val, by have := lt256 t; omega⟩
/-- The token of column `q` of a block of the FIRST array at point `t` (the i-tile). -/
def tokI (t : Fin cfg0.N) (q : Fin 256) : Fin 2048 := ⟨256 * (t.val % 8) + q.val, by omega⟩
/-- The token of column `q` of a block of the SECOND array at point `t` (the j-tile). -/
def tokJ (t : Fin cfg0.N) (q : Fin 256) : Fin 2048 := ⟨256 * (t.val / 8 % 8) + q.val, by omega⟩

end Cert.KernelIdeal.Hand

end
-- ==== Proof.KIFinal.lean ====
/-
  From the blocks written back to the two whole arrays of minima, and through the host lines after the region to
  the program's result.

  The min-over-i array (64 × 2048, indexed (b, j)) is written back one 16 × 256 block per (bb, jb), after the last
  i-tile (ib = 7); the min-over-j array (indexed (b, i)) one 16 × 2048 block per bb, after the last point of the
  batch block (jb = ib = 7). Given what those blocks hold there — the minima over ALL tokens — every index of either
  array lies in exactly such a block, so the arrays end at the two minima of the specification; the host lines after
  the region are one function of the two arrays.
-/
import proofs.«105608_j22797686407325_1_alg».proof.Proof.KI.Frame
import proofs.«105608_j22797686407325_1_alg».proof.Proof.KI.Index
import proofs.«105608_j22797686407325_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Final

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Hand Cert.Chamfer Idealize.ShloMosaic.ValueIdx

variable (m : (ℓ : Loc nD τ sig) → Buf (Elt Ideal) ℓ) (ρ : Dev nD → PrngReg)

/-- The printed index maps of the two output windows, decided over the grid. -/
theorem idx4 : ∀ t : Fin cfg0.N, win0_4.index t (0 : Fin 2) = t.val / 64 ∧ win0_4.index t (1 : Fin 2) = t.val / 8 % 8 :=
  (by decide +kernel : ∀ t : Fin grid0.N, win0_4.index t (0 : Fin 2) = t.val / 64 ∧ win0_4.index t (1 : Fin 2) = t.val / 8 % 8)
theorem idx5 : ∀ t : Fin cfg0.N, win0_5.index t (0 : Fin 2) = t.val / 64 ∧ win0_5.index t (1 : Fin 2) = 0 :=
  (by decide +kernel : ∀ t : Fin grid0.N, win0_5.index t (0 : Fin 2) = t.val / 64 ∧ win0_5.index t (1 : Fin 2) = 0)

/-- Every (bb, jb) has its writing-back point, and every bb. -/
theorem onto4 : ∀ (q0 : Fin 4) (q1 : Fin 8), ∃ t : Fin cfg0.N, t.val = 64 * q0.val + 8 * q1.val + 7 :=
  fun q0 q1 => ⟨⟨64 * q0.val + 8 * q1.val + 7, by rw [show cfg0.N = 256 from N_0]; omega⟩, rfl⟩
theorem onto5 : ∀ (q0 : Fin 4), ∃ t : Fin cfg0.N, t.val = 64 * q0.val + 63 :=
  fun q0 => ⟨⟨64 * q0.val + 63, by rw [show cfg0.N = 256 from N_0]; omega⟩, rfl⟩

/-- An index of the array is in point `t`'s block iff each coordinate is in the block's range on its axis. -/
theorem mem_blk4 (t : Fin cfg0.N) (i : S64x2048.Idx) :
    i ∈ ((cfg0.win 4).blk t).view.set ↔ ∀ a : Fin 2, win0_4.index t a * S16x256.size a ≤ (i a).val ∧ (i a).val < win0_4.index t a * S16x256.size a + S16x256.size a := by
  show i ∈ ((View.whole main_v4_0).slice (win0_4.rect t)).set ↔ _
  rw [View.set_slice_whole, Rect.mem_set_unit]
  exact Iff.rfl
theorem mem_blk5 (t : Fin cfg0.N) (i : S64x2048.Idx) :
    i ∈ ((cfg0.win 5).blk t).view.set ↔ ∀ a : Fin 2, win0_5.index t a * S16x2048.size a ≤ (i a).val ∧ (i a).val < win0_5.index t a * S16x2048.size a + S16x2048.size a := by
  show i ∈ ((View.whole main_v4_1).slice (win0_5.rect t)).set ↔ _
  rw [View.set_slice_whole, Rect.mem_set_unit]
  exact Iff.rfl

/-- Every index of the min-over-i array is in the block some point writes back. -/
theorem cover4 (i : S64x2048.Idx) : ∃ t : Fin cfg0.N, (cfg0.win 4).flush t = true ∧ i ∈ ((cfg0.win 4).blk t).view.set := by
  have hi0 : (i 0).val < 64 := (i 0).isLt
  have hi1 : (i 1).val < 2048 := (i 1).isLt
  obtain ⟨t, ht⟩ := onto4 ⟨(i 0).val / 16, by omega⟩ ⟨(i 1).val / 256, by omega⟩
  dsimp only at ht
  obtain ⟨e0, e1⟩ := idx4 t
  refine ⟨t, (flush0_4 t).mpr (by omega), ?_⟩
  rw [mem_blk4]
  intro a
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 256 ≤ (i 1).val ∧ (i 1).val < win0_4.index t (1 : Fin 2) * 256 + 256; omega

/-- Every index of the min-over-j array is in the block some point writes back. -/
theorem cover5 (i : S64x2048.Idx) : ∃ t : Fin cfg0.N, (cfg0.win 5).flush t = true ∧ i ∈ ((cfg0.win 5).blk t).view.set := by
  have hi0 : (i 0).val < 64 := (i 0).isLt
  have hi1 : (i 1).val < 2048 := (i 1).isLt
  obtain ⟨t, ht⟩ := onto5 ⟨(i 0).val / 16, by omega⟩
  dsimp only at ht
  obtain ⟨e0, e1⟩ := idx5 t
  refine ⟨t, (flush0_5 t).mpr (by omega), ?_⟩
  rw [mem_blk5]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 2048 ≤ (i 1).val ∧ (i 1).val < win0_5.index t (1 : Fin 2) * 2048 + 2048; omega

section Arrays

variable (c : Dev nD) (P T : SArg.Idx → EReal)
/- What the two blocks hold at the points that write them back: the minima over all tokens. -/
variable (hout4 : ∀ (t : Fin cfg0.N), t.val % 8 = 7 → ∀ (r : Fin 16) (q : Fin 256),
    (outs m c t.val t.isLt).1 (ix2 r q) = minOverFirst P T (ix2 (rowOf t r) (tokJ t q)))
variable (hout5 : ∀ (t : Fin cfg0.N), t.val % 64 = 63 → ∀ (r : Fin 16) (q : Fin 2048),
    (outs m c t.val t.isLt).2 (ix2 r q) = minOverSecond P T (ix2 (rowOf t r) q))

include hout4 in
/-- What a point writes back of the min-over-i block is that block of the minima over the first array's tokens. -/
theorem flushed4_eq (t : Fin cfg0.N) (hf : (cfg0.win 4).flush t = true) :
    (dats m 0 c).flushed 4 t = ((cfg0.win 4).blk t).view.read (Elt Ideal) (minOverFirst P T) := by
  show (cfg0.win 4).cut (grid0.coords t) ((dats m 0 c).after 4 t) = _
  rw [after4]
  funext j
  obtain ⟨r, q, rfl⟩ : ∃ (r : Fin 16) (q : Fin 256), j = ix2 r q := ⟨j 0, j 1, eq_ix2 j⟩
  show (outs m c t.val t.isLt).1 (ix2 r q) = minOverFirst P T (((cfg0.win 4).blk t).view.emb (ix2 r q))
  rw [hout4 t ((flush0_4 t).mp hf) r q]
  obtain ⟨e0, e1⟩ := idx4 t
  refine congrArg (minOverFirst P T) (funext fun a => Fin.ext ?_)
  match a with
  | ⟨0, _⟩ => show 16 * (t.val / 64) + r.val = win0_4.index t (0 : Fin 2) * 16 + 1 * r.val; omega
  | ⟨1, _⟩ => show 256 * (t.val / 8 % 8) + q.val = win0_4.index t (1 : Fin 2) * 256 + 1 * q.val; omega

include hout5 in
/-- What a point writes back of the min-over-j block is that block of the minima over the second array's tokens. -/
theorem flushed5_eq (t : Fin cfg0.N) (hf : (cfg0.win 5).flush t = true) :
    (dats m 0 c).flushed 5 t = ((cfg0.win 5).blk t).view.read (Elt Ideal) (minOverSecond P T) := by
  show (cfg0.win 5).cut (grid0.coords t) ((dats m 0 c).after 5 t) = _
  rw [after5]
  funext j
  obtain ⟨r, q, rfl⟩ : ∃ (r : Fin 16) (q : Fin 2048), j = ix2 r q := ⟨j 0, j 1, eq_ix2 j⟩
  show (outs m c t.val t.isLt).2 (ix2 r q) = minOverSecond P T (((cfg0.win 5).blk t).view.emb (ix2 r q))
  rw [hout5 t ((flush0_5 t).mp hf) r q]
  obtain ⟨e0, e1⟩ := idx5 t
  refine congrArg (minOverSecond P T) (funext fun a => Fin.ext ?_)
  match a with
  | ⟨0, _⟩ => show 16 * (t.val / 64) + r.val = win0_5.index t (0 : Fin 2) * 16 + 1 * r.val; omega
  | ⟨1, _⟩ => show q.val = win0_5.index t (1 : Fin 2) * 2048 + 1 * q.val; omega

include hout4 in
/-- The min-over-i array after the run. -/
theorem final4 : (dats m 0 c).arrAt 4 cfg0.N = minOverFirst P T :=
  (dats m 0 c).arrAt_eq_of_cover 4 (minOverFirst P T) (fun t hf => flushed4_eq m c P T hout4 t hf) cover4

include hout5 in
/-- The min-over-j array after the run. -/
theorem final5 : (dats m 0 c).arrAt 5 cfg0.N = minOverSecond P T :=
  (dats m 0 c).arrAt_eq_of_cover 5 (minOverSecond P T) (fun t hf => flushed5_eq m c P T hout5 t hf) cover5

end Arrays

end Cert.KernelIdeal.Final

end
-- ==== Proof.KIBlocks.lean ====
/-
  What the four input blocks hold at a grid point. Each 64 × 4096 argument array is cut on the host into its low
  half (columns 0 … 2047, the tokens' first feature) and its high half (columns 2048 … 4095, the second feature).
  At the point t = 64·bb + 8·jb + ib of the (4, 8, 8) grid the blocks of the first argument's halves are the
  16 × 256 blocks at block index (bb, ib), those of the second argument's halves the blocks at (bb, jb). So entry
  (r, q) of a block is the argument at row 16·bb + r and, along the tokens, at token 256·ib + q of the first
  argument (256·jb + q of the second): column token for a low half, column 2048 + token for a high half.
-/
import proofs.«105608_j22797686407325_1_alg».proof.Proof.Gen.KernelIdeal.Frame
import proofs.«105608_j22797686407325_1_alg».proof.Proof.KI.Index
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Blocks

open Idealize.ShloMosaic Idealize.ShloMosaic.TcCoe Idealize.ShloMosaic.Tactic
open Cert.KernelIdeal Cert.KernelIdeal.Gen Cert.KernelIdeal.Hand Cert.Chamfer Idealize.ShloMosaic.ValueIdx

variable (m : (ℓ : Loc nD τ sig) → Buf (Elt Ideal) ℓ) (c : Dev nD)

/-- The block indices at point t: every window's row block is t / 64; the column block of the first argument's
    halves is t mod 8, that of the second argument's halves is t / 8 mod 8. -/
theorem idx_facts : ∀ t : Fin cfg0.N,
    (win0_0.index t (0 : Fin 2) = t.val / 64 ∧ win0_0.index t (1 : Fin 2) = t.val % 8)
    ∧ (win0_1.index t (0 : Fin 2) = t.val / 64 ∧ win0_1.index t (1 : Fin 2) = t.val % 8)
    ∧ (win0_2.index t (0 : Fin 2) = t.val / 64 ∧ win0_2.index t (1 : Fin 2) = t.val / 8 % 8)
    ∧ (win0_3.index t (0 : Fin 2) = t.val / 64 ∧ win0_3.index t (1 : Fin 2) = t.val / 8 % 8) :=
  (by decide +kernel : ∀ t : Fin grid0.N, _)

/-! ## The four halves, as slices of the arguments -/

/-- The first window's array is the low half of the first argument. -/
theorem Varr0 : (V m c main_v0 : S64x2048.Idx → EReal)
    = extractStridedSlice S64x2048 ![0, 0] (m ((c.tc : Thread nD τ).loc main_arg0) : S64x4096.Idx → EReal) slices_S64x4096_S64x2048_0_0 := by
  show StableHlo.after hostOps0 (fun b => m (c, b)) (Proc.devRef .tc main_v0) = _
  after_results
/-- The second window's array is the high half of the first argument. -/
theorem Varr1 : (V m c main_v1 : S64x2048.Idx → EReal)
    = extractStridedSlice S64x2048 ![0, 2048] (m ((c.tc : Thread nD τ).loc main_arg0) : S64x4096.Idx → EReal) slices_S64x4096_S64x2048_0_2048 := by
  show StableHlo.after hostOps0 (fun b => m (c, b)) (Proc.devRef .tc main_v1) = _
  after_results
/-- The third window's array is the low half of the second argument. -/
theorem Varr2 : (V m c main_v2 : S64x2048.Idx → EReal)
    = extractStridedSlice S64x2048 ![0, 0] (m ((c.tc : Thread nD τ).loc main_arg1) : S64x4096.Idx → EReal) slices_S64x4096_S64x2048_0_0 := by
  show StableHlo.after hostOps0 (fun b => m (c, b)) (Proc.devRef .tc main_v2) = _
  after_results
/-- The fourth window's array is the high half of the second argument. -/
theorem Varr3 : (V m c main_v3 : S64x2048.Idx → EReal)
    = extractStridedSlice S64x2048 ![0, 2048] (m ((c.tc : Thread nD τ).loc main_arg1) : S64x4096.Idx → EReal) slices_S64x4096_S64x2048_0_2048 := by
  show StableHlo.after hostOps0 (fun b => m (c, b)) (Proc.devRef .tc main_v3) = _
  after_results

/-! ## A half read at an index -/

/-- The low half at (b, i) is the array at (b, i). -/
theorem slice_lo (X : S64x4096.Idx → EReal) (b : Fin 64) (i : Fin 2048) (k : S64x2048.Idx)
    (h0 : (k 0).val = b.val) (h1 : (k 1).val = i.val) :
    extractStridedSlice S64x2048 ![0, 0] X slices_S64x4096_S64x2048_0_0 k = X (ix2 b (lo i)) :=
  extractStridedSlice_apply ![0, 0] X slices_S64x4096_S64x2048_0_0 k (ix2 b (lo i)) (fun a => match a with
    | ⟨0, _⟩ => by show b.val = 0 + (k 0).val; omega
    | ⟨1, _⟩ => by show i.val = 0 + (k 1).val; omega)
/-- The high half at (b, i) is the array at (b, 2048 + i). -/
theorem slice_hi (X : S64x4096.Idx → EReal) (b : Fin 64) (i : Fin 2048) (k : S64x2048.Idx)
    (h0 : (k 0).val = b.val) (h1 : (k 1).val = i.val) :
    extractStridedSlice S64x2048 ![0, 2048] X slices_S64x4096_S64x2048_0_2048 k = X (ix2 b (hi i)) :=
  extractStridedSlice_apply ![0, 2048] X slices_S64x4096_S64x2048_0_2048 k (ix2 b (hi i)) (fun a => match a with
    | ⟨0, _⟩ => by show b.val = 0 + (k 0).val; omega
    | ⟨1, _⟩ => by show 2048 + i.val = 2048 + (k 1).val; omega)

/-! ## The blocks at a point: entry (r, q) sits at block index × block size + the coordinate inside the block -/

/-- Block 0 at t: the first feature of token 256·(t mod 8) + q of row 16·(t / 64) + r of the first argument. -/
theorem blk0 (t : Fin cfg0.N) (r : Fin 16) (q : Fin 256) :
    (iblk m c 0 t : Vec Ideal S16x256 .f32) (ix2 r q)
      = (m ((c.tc : Thread nD τ).loc main_arg0) : SArg.Idx → EReal) (ix2 (rowOf t r) (lo (tokI t q))) := by
  obtain ⟨⟨e0, e1⟩, -⟩ := idx_facts t
  unfold iblk
  rw [View.read_apply]
  show (V m c main_v0 : S64x2048.Idx → EReal) _ = _
  rw [Varr0]
  refine slice_lo _ _ _ _ ?_ ?_
  · show win0_0.index t (0 : Fin 2) * 16 + 1 * r.val = 16 * (t.val / 64) + r.val
    rw [e0]; omega
  · show win0_0.index t (1 : Fin 2) * 256 + 1 * q.val = 256 * (t.val % 8) + q.val
    rw [e1]; omega

/-- Block 1 at t: the second feature of token 256·(t mod 8) + q of row 16·(t / 64) + r of the first argument. -/
theorem blk1 (t : Fin cfg0.N) (r : Fin 16) (q : Fin 256) :
    (iblk m c 1 t : Vec Ideal S16x256 .f32) (ix2 r q)
      = (m ((c.tc : Thread nD τ).loc main_arg0) : SArg.Idx → EReal) (ix2 (rowOf t r) (hi (tokI t q))) := by
  obtain ⟨-, ⟨e0, e1⟩, -⟩ := idx_facts t
  unfold iblk
  rw [View.read_apply]
  show (V m c main_v1 : S64x2048.Idx → EReal) _ = _
  rw [Varr1]
  refine slice_hi _ _ _ _ ?_ ?_
  · show win0_1.index t (0 : Fin 2) * 16 + 1 * r.val = 16 * (t.val / 64) + r.val
    rw [e0]; omega
  · show win0_1.index t (1 : Fin 2) * 256 + 1 * q.val = 256 * (t.val % 8) + q.val
    rw [e1]; omega

/-- Block 2 at t: the first feature of token 256·(t / 8 mod 8) + q of row 16·(t / 64) + r of the second argument. -/
theorem blk2 (t : Fin cfg0.N) (r : Fin 16) (q : Fin 256) :
    (iblk m c 2 t : Vec Ideal S16x256 .f32) (ix2 r q)
      = (m ((c.tc : Thread nD τ).loc main_arg1) : SArg.Idx → EReal) (ix2 (rowOf t r) (lo (tokJ t q))) := by
  obtain ⟨-, -, ⟨e0, e1⟩, -⟩ := idx_facts t
  unfold iblk
  rw [View.read_apply]
  show (V m c main_v2 : S64x2048.Idx → EReal) _ = _
  rw [Varr2]
  refine slice_lo _ _ _ _ ?_ ?_
  · show win0_2.index t (0 : Fin 2) * 16 + 1 * r.val = 16 * (t.val / 64) + r.val
    rw [e0]; omega
  · show win0_2.index t (1 : Fin 2) * 256 + 1 * q.val = 256 * (t.val / 8 % 8) + q.val
    rw [e1]; omega

/-- Block 3 at t: the second feature of token 256·(t / 8 mod 8) + q of row 16·(t / 64) + r of the second argument. -/
theorem blk3 (t : Fin cfg0.N) (r : Fin 16) (q : Fin 256) :
    (iblk m c 3 t : Vec Ideal S16x256 .f32) (ix2 r q)
      = (m ((c.tc : Thread nD τ).loc main_arg1) : SArg.Idx → EReal) (ix2 (rowOf t r) (hi (tokJ t q))) := by
  obtain ⟨-, -, -, ⟨e0, e1⟩⟩ := idx_facts t
  unfold iblk
  rw [View.read_apply]
  show (V m c main_v3 : S64x2048.Idx → EReal) _ = _
  rw [Varr3]
  refine slice_hi _ _ _ _ ?_ ?_
  · show win0_3.index t (0 : Fin 2) * 16 + 1 * r.val = 16 * (t.val / 64) + r.val
    rw [e0]; omega
  · show win0_3.index t (1 : Fin 2) * 256 + 1 * q.val = 256 * (t.val / 8 % 8) + q.val
    rw [e1]; omega

end Cert.KernelIdeal.Blocks

end
-- ==== Proof.KIPayload.lean ====
/-
  The kernel body's arithmetic read at an index, on the extended reals.

  The body holds four blocks of 16 rows by 256 tokens: the two features of a tile of the first array's tokens and the
  two features of a tile of the second array's tokens. From them it forms, for every row r and every pair (i, j) of a
  token of the first tile and a token of the second, the pair's cost, by laying the per-token quantities along a third
  axis (a column [16, 256, 1] or a row [16, 1, 256] repeated to [16, 256, 256]); then the minimum of the costs over i for
  every j, and over j for every i, each started from +∞; and it merges those minima into what the output blocks hold
  by a pointwise minimum. Here each of these values is read at an index given by its coordinates.
-/
import proofs.«105608_j22797686407325_1_alg».proof.Proof.Gen.KernelIdeal.Skeleton
import proofs.«105608_j22797686407325_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Payload

open Cert.KernelIdeal Cert.KernelIdeal.Gen Idealize.ShloMosaic Idealize.ShloMosaic.ValueIdx

/-! ## Layout: a trailing or middle unit axis added, and a unit axis repeated -/

section Layout
variable {α : Type}

/-- An `[a, b]` array cast to `[a, b, 1]` reads, at `(r, i, u)`, the operand at `(r, i)`, whatever the unit coordinate `u`. -/
theorem shapeCast_ab_ab1_apply {a b : ℕ} (x : (⟨2, ![a, b]⟩ : Shape).Idx → α)
    (h : (⟨2, ![a, b]⟩ : Shape).ShapeCasts ⟨3, ![a, b, 1]⟩) (r : Fin a) (i : Fin b) (u : Fin 1) :
    shapeCast ⟨3, ![a, b, 1]⟩ x h (ix3 r i u) = x (ix2 r i) :=
  shapeCast_apply x h _ _ (by
    have hu : u.val = 0 := by omega
    rw [Shape.rowMajor_val_three, Shape.rowMajor_val_two]
    show r.val * b + i.val = (r.val * b + i.val) * 1 + u.val
    rw [hu, Nat.mul_one, Nat.add_zero])

/-- An `[a, b]` array cast to `[a, 1, b]` reads, at `(r, u, j)`, the operand at `(r, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (r : Fin a) (u : Fin 1) (j : Fin b) :
    shapeCast ⟨3, ![a, 1, b]⟩ x h (ix3 r u j) = x (ix2 r j) :=
  shapeCast_apply x h _ _ (by
    have hu : u.val = 0 := by omega
    rw [Shape.rowMajor_val_three, Shape.rowMajor_val_two]
    show r.val * b + j.val = (r.val * 1 + u.val) * b + j.val
    rw [hu, Nat.mul_one, Nat.add_zero])

/-- An `[a, b, 1]` array broadcast to `[a, b, c]` reads, at `(r, i, j)`, the operand's one entry at `(r, i)`. -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (i : Fin b) (j : Fin c) :
    broadcastTo ⟨3, ![a, b, c]⟩ v h (ix3 r i j) = v (ix3 r i (0 : Fin 1)) := by
  refine broadcastTo_apply v h (ix3 r i j) (ix3 r i (0 : Fin 1)) fun ax => ?_
  match ax with
  | ⟨0, _⟩ =>
    show r.val = if a = 1 then 0 else r.val
    split
    · have := r.isLt; omega
    · rfl
  | ⟨1, _⟩ =>
    show i.val = if b = 1 then 0 else i.val
    split
    · have := i.isLt; omega
    · rfl
  | ⟨2, _⟩ => rfl

/-- An `[a, 1, c]` array broadcast to `[a, b, c]` reads, at `(r, i, j)`, the operand's one row at `(r, j)`. -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (i : Fin b) (j : Fin c) :
    broadcastTo ⟨3, ![a, b, c]⟩ v h (ix3 r i j) = v (ix3 r (0 : Fin 1) j) := by
  refine broadcastTo_apply v h (ix3 r i j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- A per-token quantity of the first tile laid along the third axis: at `(r, i, j)` it is the quantity at `(r, i)`. -/
theorem along_j_apply (v : S16x256.Idx → α) (r : Fin 16) (i j : Fin 256) :
    broadcastTo S16x256x256 (shapeCast S16x256x1 v shapeCasts_S16x256_S16x256x1) broadcasts_S16x256x1_S16x256x256 (ix3 r i j)
      = v (ix2 r i) :=
  (broadcastTo_ab1_abc_apply _ _ r i j).trans (shapeCast_ab_ab1_apply v _ r i 0)

/-- A per-token quantity of the second tile laid along the second axis: at `(r, i, j)` it is the quantity at `(r, j)`. -/
theorem along_i_apply (v : S16x256.Idx → α) (r : Fin 16) (i j : Fin 256) :
    broadcastTo S16x256x256 (shapeCast S16x1x256 v shapeCasts_S16x256_S16x1x256) broadcasts_S16x1x256_S16x256x256 (ix3 r i j)
      = v (ix2 r j) :=
  (broadcastTo_a1c_abc_apply _ _ r i j).trans (shapeCast_ab_a1b_apply v _ r 0 j)

end Layout

/-! ## The cost of a pair -/

/-- At row `r`, token `i` of the first tile and token `j` of the second, the body's cost tile holds the cost of that pair. -/
theorem pay4_apply (x0 x1 x2 x3 : Vec Ideal S16x256 .f32) (r : Fin 16) (i j : Fin 256) :
    k0_pay4 (F := Ideal) x0 x1 x2 x3 (ix3 r i j)
      = Cert.Chamfer.pairCost (x0 (ix2 r i)) (x1 (ix2 r i)) (x2 (ix2 r j)) (x3 (ix2 r j)) := by
  unfold k0_pay4
  simp only [shapeCast_self]
  show Ideal.sqrt (max ((_ + _) - _ * (_ * _ + _ * _)) _) = _
  simp only [along_j_apply, along_i_apply]
  rfl

/-! ## The merges into the output blocks, and the blocks' first contents -/

/-- The first output block's new contents: the pointwise minimum of what it held and the minima over the first tile's tokens. -/
theorem pay1_apply (v36 : FVec Ideal S16x256 .f32) (v41 : Vec Ideal S16x256 .f32) (y : S16x256.Idx) :
    k0_pay1 (F := Ideal) v36 v41 y = min (v41 y) (v36 y) := by
  unfold k0_pay1
  simp only [shapeCast_self]
  rfl

/-- The second output block's new contents at the tile's columns, likewise. -/
theorem pay3_apply (v37 : FVec Ideal S16x256 .f32) (v53 : Vec Ideal S16x256 .f32) (y : S16x256.Idx) :
    k0_pay3 (F := Ideal) v37 v53 y = min (v53 y) (v37 y) := by
  unfold k0_pay3
  simp only [shapeCast_self]
  rfl

/-- What the first output block is set to before a sweep: +∞ everywhere. -/
theorem pay7_apply (y : S16x256.Idx) : k0_pay7 (F := Ideal) y = (⊤ : EReal) :=
  Cert.Chamfer.ofBits_inf

/-- What the second output block is set to before a sweep: +∞ everywhere. -/
theorem pay2_apply (y : S16x2048.Idx) : k0_pay2 (F := Ideal) y = (⊤ : EReal) :=
  Cert.Chamfer.ofBits_inf

/-! ## The two minima -/

/-- A `<minimumf>` reduction over one axis, on the extended reals: the fold of `min` from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Over result index `(r, j)` of the reduction along the second axis, the source index with `i` on that axis is `(r, i, j)`. -/
theorem lift1_ix2 (r : Fin 16) (j i : Fin 256) :
    reduces_S16x256x256_S16x256.lift (ix2 r j) i = ix3 r i j := by
  funext c; apply Fin.ext
  match c with
  | ⟨0, _⟩ => rfl
  | ⟨1, _⟩ => rfl
  | ⟨2, _⟩ => rfl

/-- Over result index `(r, i)` of the reduction along the third axis, the source index with `j` on that axis is `(r, i, j)`. -/
theorem lift2_ix2 (r : Fin 16) (i j : Fin 256) :
    reduces_S16x256x256_S16x256_2.lift (ix2 r i) j = ix3 r i j := by
  funext c; apply Fin.ext
  match c with
  | ⟨0, _⟩ => rfl
  | ⟨1, _⟩ => rfl
  | ⟨2, _⟩ => rfl

/-- The minimum along the second axis from +∞, at `(r, j)`: the infimum over `i` of the source at `(r, i, j)`. -/
theorem min_axis1_apply (src : FVec Ideal S16x256x256 .f32) (hφ : FKind.Formats .f32)
    (hacc : (0x7F800000#32 : BitVec 32) = FKind.minimumf.neutral .f32 hφ) (r : Fin 16) (j : Fin 256) :
    multiReduction (F := Ideal) .minimumf [1] S16x256 src 0x7F800000#32 reduces_S16x256x256_S16x256 hφ hacc (ix2 r j)
      = Finset.univ.inf fun i : Fin 256 => src (ix3 r i j) := by
  refine (multiReduction_minimumf_single src _ reduces_S16x256x256_S16x256 hφ hacc (ix2 r j)).trans ?_
  rw [Ideal.ofBits_def, Cert.Chamfer.ofBits_inf, Cert.Chamfer.fold_min_top]
  exact Finset.inf_congr rfl fun i _ => congrArg src (lift1_ix2 r j i)

/-- The minimum along the third axis from +∞, at `(r, i)`: the infimum over `j` of the source at `(r, i, j)`. -/
theorem min_axis2_apply (src : FVec Ideal S16x256x256 .f32) (hφ : FKind.Formats .f32)
    (hacc : (0x7F800000#32 : BitVec 32) = FKind.minimumf.neutral .f32 hφ) (r : Fin 16) (i : Fin 256) :
    multiReduction (F := Ideal) .minimumf [2] S16x256 src 0x7F800000#32 reduces_S16x256x256_S16x256_2 hφ hacc (ix2 r i)
      = Finset.univ.inf fun j : Fin 256 => src (ix3 r i j) := by
  refine (multiReduction_minimumf_single src _ reduces_S16x256x256_S16x256_2 hφ hacc (ix2 r i)).trans ?_
  rw [Ideal.ofBits_def, Cert.Chamfer.ofBits_inf, Cert.Chamfer.fold_min_top]
  exact Finset.inf_congr rfl fun j _ => congrArg src (lift2_ix2 r i j)

/-- At row `r` and token `j` of the second tile: the least cost to it from a token of the first tile. -/
theorem pay5_apply (x0 x1 x2 x3 : Vec Ideal S16x256 .f32) (r : Fin 16) (j : Fin 256) :
    k0_pay5 (F := Ideal) x0 x1 x2 x3 (ix2 r j)
      = Finset.univ.inf fun i : Fin 256 =>
          Cert.Chamfer.pairCost (x0 (ix2 r i)) (x1 (ix2 r i)) (x2 (ix2 r j)) (x3 (ix2 r j)) := by
  unfold k0_pay5
  exact (min_axis1_apply (k0_pay4 (F := Ideal) x0 x1 x2 x3) _ _ r j).trans
    (Finset.inf_congr rfl fun i _ => pay4_apply x0 x1 x2 x3 r i j)

/-- At row `r` and token `i` of the first tile: the least cost from it to a token of the second tile. -/
theorem pay6_apply (x0 x1 x2 x3 : Vec Ideal S16x256 .f32) (r : Fin 16) (i : Fin 256) :
    k0_pay6 (F := Ideal) x0 x1 x2 x3 (ix2 r i)
      = Finset.univ.inf fun j : Fin 256 =>
          Cert.Chamfer.pairCost (x0 (ix2 r i)) (x1 (ix2 r i)) (x2 (ix2 r j)) (x3 (ix2 r j)) := by
  unfold k0_pay6
  exact (min_axis2_apply (k0_pay4 (F := Ideal) x0 x1 x2 x3) _ _ r i).trans
    (Finset.inf_congr rfl fun j _ => pay4_apply x0 x1 x2 x3 r i j)

end Cert.KernelIdeal.Payload

end
-- ==== Proof.KIAccum.lean ====
/-
  The two running minima in closed form.

  The grid is (4, 8, 8), a point t = 64·bb + 8·jb + ib. After the body at point t the min-over-i block holds, at
  (r, q), the least cost to token 256·jb + q of the second array from the tokens i < 256·(ib + 1) of the first, in
  row 16·bb + r; the min-over-j block holds, at (r, q), the least cost from token q of the first array to the tokens
  j < 256·k of the second, where k = jb + 1 if q's tile has been met in the current sweep over ib (q / 256 ≤ ib) and
  k = jb otherwise. At the points where the blocks are written back (ib = 7, resp. jb = ib = 7) the bound is 2048 and
  the minima are those over all the tokens.
-/
import proofs.«105608_j22797686407325_1_alg».proof.Proof.KI.Frame
import proofs.«105608_j22797686407325_1_alg».proof.Proof.KI.Index
import proofs.«105608_j22797686407325_1_alg».proof.Proof.KIPayload
import proofs.«105608_j22797686407325_1_alg».proof.Proof.Spec
import Mathlib.Data.Finset.Lattice.Fold

set_option maxRecDepth 16384

noncomputable section

namespace Cert.KernelIdeal.Accum

open Cert.KernelIdeal Cert.KernelIdeal.Gen Cert.KernelIdeal.Hand Cert.Chamfer
open Idealize.ShloMosaic Idealize.ShloMosaic.ValueIdx

/-! ## Infima over an initial stretch of the tokens -/

section Lattice

/-- The tokens below 256·k. -/
def below (k : ℕ) : Finset (Fin 2048) := Finset.univ.filter fun i : Fin 2048 => i.val < 256 * k

/-- Token q of tile k. -/
def tile (k : ℕ) (hk : k < 8) (q : Fin 256) : Fin 2048 := ⟨256 * k + q.val, by omega⟩

theorem below_zero : below 0 = ∅ := by
  unfold below
  exact Finset.filter_eq_empty_iff.mpr fun i _ h => by omega

theorem below_eight : below 8 = Finset.univ := by
  unfold below
  exact Finset.filter_eq_self.mpr fun i _ => by omega

/-- The tokens below 256·(k + 1) are those below 256·k and those of tile k. -/
theorem below_succ (k : ℕ) (hk : k < 8) : below (k + 1) = below k ∪ Finset.univ.image (tile k hk) := by
  ext i
  simp only [below, Finset.mem_filter, Finset.mem_univ, true_and, Finset.mem_union, Finset.mem_image]
  constructor
  · intro h
    by_cases h' : i.val < 256 * k
    · exact Or.inl h'
    · exact Or.inr ⟨⟨i.val - 256 * k, by omega⟩, Fin.ext (by show 256 * k + (i.val - 256 * k) = i.val; omega)⟩
  · rintro (h | ⟨q, rfl⟩)
    · omega
    · show 256 * k + q.val < 256 * (k + 1); omega

variable (f : Fin 2048 → EReal)

theorem inf_below_zero : (below 0).inf f = ⊤ := by rw [below_zero, Finset.inf_empty]

/-- The infimum below 256·(k + 1): the lesser of the infimum below 256·k and the infimum over tile k. -/
theorem inf_below_succ (k : ℕ) (hk : k < 8) :
    (below (k + 1)).inf f = min ((below k).inf f) (Finset.univ.inf fun q : Fin 256 => f (tile k hk q)) := by
  rw [below_succ k hk, Finset.inf_union, Finset.inf_image]; rfl

end Lattice

/-! ## The bound of the min-over-j block -/

/-- How many j-tiles the min-over-j block has met at column q after point t. -/
def bnd (t q : ℕ) : ℕ := if q / 256 ≤ t % 8 then t / 8 % 8 + 1 else t / 8 % 8

theorem bnd_in (t q : ℕ) (hq : q / 256 = t % 8) : bnd t q = t / 8 % 8 + 1 := by
  unfold bnd; rw [if_pos (by omega)]

theorem bnd_pred_in (t q : ℕ) (hq : q / 256 = t % 8) (h : ¬t % 64 = 0) : bnd (t - 1) q = t / 8 % 8 := by
  unfold bnd; split_ifs <;> omega

theorem bnd_pred_out (t q : ℕ) (hq : ¬q / 256 = t % 8) (hq2 : q < 2048) (h : ¬t % 64 = 0) : bnd (t - 1) q = bnd t q := by
  unfold bnd; split_ifs <;> omega

theorem bnd_reset_out (t q : ℕ) (hq : ¬q / 256 = t % 8) (h : t % 64 = 0) : bnd t q = 0 := by
  unfold bnd; split_ifs <;> omega

theorem bnd_last (t q : ℕ) (hq : q < 2048) (h : t % 64 = 63) : bnd t q = 8 := by
  unfold bnd; split_ifs <;> omega

/-! ## One point's effect, read at an index -/

section Point

variable (m : (ℓ : Loc nD τ sig) → Buf (Elt Ideal) ℓ) (c : Dev nD) (P T : SArg.Idx → EReal)
variable (hb0 : ∀ (t : Fin cfg0.N) (r : Fin 16) (q : Fin 256), xb0 m c t (ix2 r q) = P (ix2 (rowOf t r) (lo (tokI t q))))
variable (hb1 : ∀ (t : Fin cfg0.N) (r : Fin 16) (q : Fin 256), xb1 m c t (ix2 r q) = P (ix2 (rowOf t r) (hi (tokI t q))))
variable (hb2 : ∀ (t : Fin cfg0.N) (r : Fin 16) (q : Fin 256), xb2 m c t (ix2 r q) = T (ix2 (rowOf t r) (lo (tokJ t q))))
variable (hb3 : ∀ (t : Fin cfg0.N) (r : Fin 16) (q : Fin 256), xb3 m c t (ix2 r q) = T (ix2 (rowOf t r) (hi (tokJ t q))))

/-- The innermost grid coordinate of point t is t mod 8. -/
theorem coords2 : ∀ t : Fin cfg0.N, ((grid0.coords t) 2).val = t.val % 8 :=
  (by decide +kernel : ∀ t : Fin grid0.N, ((grid0.coords t) 2).val = t.val % 8)

include hb0 hb1 hb2 hb3 in
/-- The min-over-i block after point t at (r, q): the lesser of what it held and the least cost to token q of the
    point's j-tile from the tokens of the point's i-tile. -/
theorem acc4_apply (t : Fin cfg0.N) (prev : Vec Ideal S16x256 .f32) (r : Fin 16) (q : Fin 256) :
    acc4 (xb0 m c t) (xb1 m c t) (xb2 m c t) (xb3 m c t) prev (ix2 r q)
      = min (prev (ix2 r q)) (Finset.univ.inf fun i : Fin 256 => cost P T (rowOf t r) (tokI t i) (tokJ t q)) := by
  unfold acc4
  rw [Payload.pay1_apply, Payload.pay5_apply]
  simp only [hb0, hb1, hb2, hb3]
  rfl

/-- The offsets of the point's columns in the 16 × 2048 block, axis by axis. -/
theorem off_apply (t : Fin cfg0.N) : k0_off1 (grid0.coords t) = ![0, 256 * (t.val % 8)] := by
  rw [Gen.k0_off1_eq, coords2 t]

include hb0 hb1 hb2 hb3 in
/-- The min-over-j block after point t at a column of the point's i-tile: the lesser of what it held and the least
    cost from that token to the tokens of the point's j-tile. -/
theorem acc5_in (t : Fin cfg0.N) (prev : Vec Ideal S16x2048 .f32) (r : Fin 16) (q : Fin 256) :
    acc5 (grid0.coords t) (xb0 m c t) (xb1 m c t) (xb2 m c t) (xb3 m c t) prev (ix2 r (tokI t q))
      = min (prev (ix2 r (tokI t q))) (Finset.univ.inf fun j : Fin 256 => cost P T (rowOf t r) (tokI t q) (tokJ t j)) := by
  have h : ∀ a, k0_off1 (grid0.coords t) a ≤ ((ix2 r (tokI t q)) a).val
      ∧ ((ix2 r (tokI t q)) a).val < k0_off1 (grid0.coords t) a + S16x256.size a := by
    rw [off_apply t]
    refine Fin.forall_fin_two.mpr ⟨?_, ?_⟩
    · show 0 ≤ r.val ∧ r.val < 0 + 16
      omega
    · show 256 * (t.val % 8) ≤ 256 * (t.val % 8) + q.val ∧ 256 * (t.val % 8) + q.val < 256 * (t.val % 8) + 256
      omega
  have hu : Rect.unitLocal (s := S16x2048) (off := k0_off1 (grid0.coords t)) (size := S16x256.size) (ix2 r (tokI t q)) h = ix2 r q := by
    funext a; apply Fin.ext; rw [Rect.unitLocal_val, congrFun (off_apply t) a]
    match a with
    | ⟨0, _⟩ => show r.val - 0 = r.val; omega
    | ⟨1, _⟩ => show 256 * (t.val % 8) + q.val - 256 * (t.val % 8) = q.val; omega
  have hidx : (colRect (grid0.coords t)).idx (ix2 r q) = ix2 r (tokI t q) := by
    funext a; apply Fin.ext
    show k0_off1 (grid0.coords t) a + 1 * ((ix2 r q) a).val = ((ix2 r (tokI t q)) a).val
    rw [congrFun (off_apply t) a]
    match a with
    | ⟨0, _⟩ => show 0 + 1 * r.val = r.val; omega
    | ⟨1, _⟩ => show 256 * (t.val % 8) + 1 * q.val = 256 * (t.val % 8) + q.val; omega
  unfold acc5
  rw [dif_pos h, Payload.pay3_apply, hu, Payload.pay6_apply]
  show min (prev ((colRect (grid0.coords t)).idx (ix2 r q))) _ = _
  rw [hidx]
  simp only [hb0, hb1, hb2, hb3]
  rfl

/-- The min-over-j block after point t at a column outside the point's i-tile: what it held. -/
theorem acc5_out (t : Fin cfg0.N) (prev : Vec Ideal S16x2048 .f32) (r : Fin 16) (q : Fin 2048)
    (hq : ¬(256 * (t.val % 8) ≤ q.val ∧ q.val < 256 * (t.val % 8) + 256)) :
    acc5 (grid0.coords t) (xb0 m c t) (xb1 m c t) (xb2 m c t) (xb3 m c t) prev (ix2 r q) = prev (ix2 r q) := by
  unfold acc5
  rw [dif_neg]
  intro h
  have h1 := h 1
  rw [congrFun (off_apply t) 1] at h1
  exact hq h1

end Point

/-! ## The invariants -/

section Invariants

variable (m : (ℓ : Loc nD τ sig) → Buf (Elt Ideal) ℓ) (c : Dev nD) (P T : SArg.Idx → EReal)
variable (hb0 : ∀ (t : Fin cfg0.N) (r : Fin 16) (q : Fin 256), xb0 m c t (ix2 r q) = P (ix2 (rowOf t r) (lo (tokI t q))))
variable (hb1 : ∀ (t : Fin cfg0.N) (r : Fin 16) (q : Fin 256), xb1 m c t (ix2 r q) = P (ix2 (rowOf t r) (hi (tokI t q))))
variable (hb2 : ∀ (t : Fin cfg0.N) (r : Fin 16) (q : Fin 256), xb2 m c t (ix2 r q) = T (ix2 (rowOf t r) (lo (tokJ t q))))
variable (hb3 : ∀ (t : Fin cfg0.N) (r : Fin 16) (q : Fin 256), xb3 m c t (ix2 r q) = T (ix2 (rowOf t r) (hi (tokJ t q))))

/-- The point before t, off t = 0. -/
def prevPt (t : Fin cfg0.N) : Fin cfg0.N := ⟨t.val - 1, Nat.lt_of_le_of_lt (Nat.sub_le _ _) t.isLt⟩

/-- Off the first point of a sweep over ib the point before has the same row block and the same j-tile. -/
theorem rowOf_prev (t : Fin cfg0.N) (h : ¬t.val % 64 = 0) (r : Fin 16) : rowOf (prevPt t) r = rowOf t r :=
  Fin.ext (by show 16 * ((t.val - 1) / 64) + r.val = 16 * (t.val / 64) + r.val; omega)
theorem tokJ_prev (t : Fin cfg0.N) (h : ¬t.val % 8 = 0) (q : Fin 256) : tokJ (prevPt t) q = tokJ t q :=
  Fin.ext (by show 256 * ((t.val - 1) / 8 % 8) + q.val = 256 * (t.val / 8 % 8) + q.val; omega)

include hb0 hb1 hb2 hb3 in
/-- After point t the min-over-i block holds the least cost from the tokens below 256·(ib + 1). -/
theorem inv4 : ∀ (n : ℕ) (t : Fin cfg0.N), t.val = n → ∀ (r : Fin 16) (q : Fin 256),
    (outs m c t.val t.isLt).1 (ix2 r q) = (below (t.val % 8 + 1)).inf fun i => cost P T (rowOf t r) i (tokJ t q) := by
  intro n
  induction n using Nat.strong_induction_on with
  | _ n ih =>
    intro t ht r q
    have hlt := lt256 t
    rw [congrArg Prod.fst (outs_eq m c t)]
    show acc4 (xb0 m c t) (xb1 m c t) (xb2 m c t) (xb3 m c t) (from4 m c t) (ix2 r q) = _
    rw [acc4_apply m c P T hb0 hb1 hb2 hb3, inf_below_succ _ (t.val % 8) (by omega)]
    congr 1
    unfold from4
    by_cases h0 : t.val % 8 = 0
    · rw [if_pos h0, h0, inf_below_zero]
      exact Payload.pay7_apply _
    · rw [if_neg h0]
      have h := ih (t.val - 1) (by omega) (prevPt t) rfl r q
      rw [rowOf_prev t (by omega), tokJ_prev t h0, show (prevPt t).val % 8 + 1 = t.val % 8 from by show (t.val - 1) % 8 + 1 = t.val % 8; omega] at h
      exact h

include hb0 hb1 hb2 hb3 in
/-- After point t the min-over-j block holds, at column q, the least cost to the tokens below 256·(bound of q at t). -/
theorem inv5 : ∀ (n : ℕ) (t : Fin cfg0.N), t.val = n → ∀ (r : Fin 16) (q : Fin 2048),
    (outs m c t.val t.isLt).2 (ix2 r q) = (below (bnd t.val q.val)).inf fun j => cost P T (rowOf t r) q j := by
  intro n
  induction n using Nat.strong_induction_on with
  | _ n ih =>
    intro t ht r q
    have hlt := lt256 t
    have hq := q.isLt
    rw [congrArg Prod.snd (outs_eq m c t)]
    show acc5 (grid0.coords t) (xb0 m c t) (xb1 m c t) (xb2 m c t) (xb3 m c t) (from5 m c t) (ix2 r q) = _
    have hfrom : from5 m c t (ix2 r q)
        = (below (if t.val % 64 = 0 then 0 else bnd (t.val - 1) q.val)).inf fun j => cost P T (rowOf t r) q j := by
      unfold from5
      by_cases h1 : t.val % 64 = 0
      · rw [if_pos h1, if_pos h1, inf_below_zero]
        exact Payload.pay2_apply _
      · rw [if_neg h1, if_neg h1]
        have h := ih (t.val - 1) (by omega) (prevPt t) rfl r q
        rw [rowOf_prev t h1] at h
        exact h
    by_cases hin : q.val / 256 = t.val % 8
    · obtain ⟨q', rfl⟩ : ∃ q' : Fin 256, q = tokI t q' :=
        ⟨⟨q.val - 256 * (t.val % 8), by omega⟩, Fin.ext (by show q.val = 256 * (t.val % 8) + (q.val - 256 * (t.val % 8)); omega)⟩
      rw [acc5_in m c P T hb0 hb1 hb2 hb3, hfrom, bnd_in _ _ hin, inf_below_succ _ (t.val / 8 % 8) (by omega)]
      have hk : (if t.val % 64 = 0 then 0 else bnd (t.val - 1) (tokI t q').val) = t.val / 8 % 8 := by
        by_cases h1 : t.val % 64 = 0
        · rw [if_pos h1]; omega
        · rw [if_neg h1]; exact bnd_pred_in _ _ hin h1
      rw [hk]
      rfl
    · rw [acc5_out m c t _ r q (by omega), hfrom]
      have hk : (if t.val % 64 = 0 then 0 else bnd (t.val - 1) q.val) = bnd t.val q.val := by
        by_cases h1 : t.val % 64 = 0
        · rw [if_pos h1]; exact (bnd_reset_out _ _ hin h1).symm
        · rw [if_neg h1]; exact bnd_pred_out _ _ hin hq h1
      rw [hk]

end Invariants

/-! ## The blocks where they are written back -/

section Final

variable (m : (ℓ : Loc nD τ sig) → Buf (Elt Ideal) ℓ) (c : Dev nD) (P T : SArg.Idx → EReal)

/-- After the last i-tile of a sweep the min-over-i block holds the minima over all the first array's tokens. -/
theorem out4_final
    (hb0 : ∀ (t : Fin cfg0.N) (r : Fin 16) (q : Fin 256), xb0 m c t (ix2 r q) = P (ix2 (rowOf t r) (lo (tokI t q))))
    (hb1 : ∀ (t : Fin cfg0.N) (r : Fin 16) (q : Fin 256), xb1 m c t (ix2 r q) = P (ix2 (rowOf t r) (hi (tokI t q))))
    (hb2 : ∀ (t : Fin cfg0.N) (r : Fin 16) (q : Fin 256), xb2 m c t (ix2 r q) = T (ix2 (rowOf t r) (lo (tokJ t q))))
    (hb3 : ∀ (t : Fin cfg0.N) (r : Fin 16) (q : Fin 256), xb3 m c t (ix2 r q) = T (ix2 (rowOf t r) (hi (tokJ t q))))
    (t : Fin cfg0.N) (h : t.val % 8 = 7) (r : Fin 16) (q : Fin 256) :
    (outs m c t.val t.isLt).1 (ix2 r q) = minOverFirst P T (ix2 (rowOf t r) (tokJ t q)) := by
  rw [inv4 m c P T hb0 hb1 hb2 hb3 t.val t rfl r q, h, below_eight]
  rfl

/-- After the last point of a row block the min-over-j block holds the minima over all the second array's tokens. -/
theorem out5_final
    (hb0 : ∀ (t : Fin cfg0.N) (r : Fin 16) (q : Fin 256), xb0 m c t (ix2 r q) = P (ix2 (rowOf t r) (lo (tokI t q))))
    (hb1 : ∀ (t : Fin cfg0.N) (r : Fin 16) (q : Fin 256), xb1 m c t (ix2 r q) = P (ix2 (rowOf t r) (hi (tokI t q))))
    (hb2 : ∀ (t : Fin cfg0.N) (r : Fin 16) (q : Fin 256), xb2 m c t (ix2 r q) = T (ix2 (rowOf t r) (lo (tokJ t q))))
    (hb3 : ∀ (t : Fin cfg0.N) (r : Fin 16) (q : Fin 256), xb3 m c t (ix2 r q) = T (ix2 (rowOf t r) (hi (tokJ t q))))
    (t : Fin cfg0.N) (h : t.val % 64 = 63) (r : Fin 16) (q : Fin 2048) :
    (outs m c t.val t.isLt).2 (ix2 r q) = minOverSecond P T (ix2 (rowOf t r) q) := by
  rw [inv5 m c P T hb0 hb1 hb2 hb3 t.val t rfl r q, bnd_last _ _ q.isLt h, below_eight]
  rfl

end Final

end Cert.KernelIdeal.Accum

end
-- ==== Proof.KIRun.lean ====
/-
  The idealized kernel program's result as a function of its two argument arrays.

  After the region the host sums each array of minima along its tokens, divides by 2048, adds the two row vectors,
  sums over the 64 rows and divides by 64: one function (`tailK`) of the two arrays. The arrays are what the region's
  write-backs left (the frame run's post); every other buffer the host lines read they wrote themselves.
-/
import proofs.«105608_j22797686407325_1_alg».proof.Proof.KIFinal
import proofs.«105608_j22797686407325_1_alg».proof.Proof.KIBlocks
import proofs.«105608_j22797686407325_1_alg».proof.Proof.KIAccum

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen Cert.KernelIdeal.Hand Cert.KernelIdeal.Final Cert.Chamfer Idealize.ShloMosaic.ValueIdx

variable (m : (ℓ : Loc nD τ sig) → Buf (Elt Ideal) ℓ) (ρ : Dev nD → PrngReg)

/-- The host lines after the region, as one function of the two arrays of minima. -/
def tailK (M1 M2 : (⟨S64x2048, .f32⟩ : BufTy).Contents (Elt Ideal)) : (⟨S_, .f32⟩ : BufTy).Contents (Elt Ideal) :=
  Host.divf (F := Ideal)
    (Host.reduceAdd (F := Ideal)
      (addf (F := Ideal)
        (Host.divf (F := Ideal)
          (Host.reduceAdd (F := Ideal) M1 (constant (F := Ideal) S_ .f32 0x00000000#32) Facts₀.reducesTo_S64x2048_S64_d1 Facts₀.h_S_)
          (broadcastInDim S64 ![] Facts₀.bcast_S_S64 (constant (F := Ideal) S_ .f32 0x45000000#32)))
        (Host.divf (F := Ideal)
          (Host.reduceAdd (F := Ideal) M2 (constant (F := Ideal) S_ .f32 0x00000000#32) Facts₀.reducesTo_S64x2048_S64_d1 Facts₀.h_S_)
          (broadcastInDim S64 ![] Facts₀.bcast_S_S64 (constant (F := Ideal) S_ .f32 0x45000000#32))))
      (constant (F := Ideal) S_ .f32 0x00000000#32) Facts₀.reducesTo_S64_S_d0 Facts₀.h_S_)
    (constant (F := Ideal) S_ .f32 0x42800000#32)

/-- The result buffer after the host lines, from what the two arrays hold at the region's exit. -/
theorem tail_value (c : Dev nD) (A4 A5 : (⟨S64x2048, .f32⟩ : BufTy).Contents (Elt Ideal))
    (h4 : (dats m 0 c).arrAt 4 cfg0.N = A4) (h5 : (dats m 0 c).arrAt 5 cfg0.N = A5) :
    Pipeline.afterTail₀ cfgs (dats m) 0 (V0 m) [hostOps1] c main_v13 = tailK A4 A5 := by
  unfold Pipeline.afterTail₀
  show StableHlo.after hostOps1 _ (Proc.devRef .tc main_v13) = _
  after_results
  have e4 : Pipeline.withArrays (cfgs 0).spec c (V0 m c) (fun w => (dats m 0 c).arrAt w (cfgs 0).N) (Proc.devRef .tc main_v4_0) = A4 :=
    (Pipeline.withArrays_arr spec0 launch0.win.arr_inj c (V0 m c) _ 4).trans h4
  have e5 : Pipeline.withArrays (cfgs 0).spec c (V0 m c) (fun w => (dats m 0 c).arrAt w (cfgs 0).N) (Proc.devRef .tc main_v4_1) = A5 :=
    (Pipeline.withArrays_arr spec0 launch0.win.arr_inj c (V0 m c) _ 5).trans h5
  rw [e4, e5]
  rfl

/-- The run, read: the result buffer ends at the host lines' function of the two minima of the specification over the
    argument arrays, and the arguments end unchanged. -/
theorem run : θ_run defs (onTc (τ := τ) (main (F := Ideal))) ⟨m, fun _ => 0, ρ⟩ fun r => ∀ c : Dev nD,
      r.2.mem ((c.tc : Thread nD τ).loc main_v13)
          = tailK (minOverFirst (m ((c.tc : Thread nD τ).loc main_arg0)) (m ((c.tc : Thread nD τ).loc main_arg1)))
              (minOverSecond (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v13 (Pipeline.mem_restRefs_of main_v13 (by decide) (by decide))).trans
        (tail_value m c _ _
          (final4 m c _ _ (fun t ht r q => Cert.KernelIdeal.Accum.out4_final m c _ _
            (Cert.KernelIdeal.Blocks.blk0 m c) (Cert.KernelIdeal.Blocks.blk1 m c) (Cert.KernelIdeal.Blocks.blk2 m c) (Cert.KernelIdeal.Blocks.blk3 m c) t ht r q))
          (final5 m c _ _ (fun t ht r q => Cert.KernelIdeal.Accum.out5_final m c _ _
            (Cert.KernelIdeal.Blocks.blk0 m c) (Cert.KernelIdeal.Blocks.blk1 m c) (Cert.KernelIdeal.Blocks.blk2 m c) (Cert.KernelIdeal.Blocks.blk3 m c) t ht r q))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main (F := Ideal) m ρ)

end Cert.KernelIdeal.KRun

end
-- ==== Proof.RefValue.lean ====
/-
  The reference's value, at the extended reals.

  The reference computes, for every row b and every pair of tokens (i of the first argument, j of the second), the cost
  sqrt(max((|p|² + |t|²) − 2·⟨p, t⟩, 0)); then two arrays of minima of it, over i and over j; then the mean of each
  array along a row, their sum, and the mean over the rows. Here: the cost array read at (b, i, j) is
  `Cert.Chamfer.cost`; the two arrays of minima are `Cert.Chamfer.minOverFirst` and `Cert.Chamfer.minOverSecond`
  (a minimum from +∞ over an axis is the infimum over that axis's coordinates); and the result is one function,
  `tail`, of the two arrays of minima.
-/
import proofs.«105608_j22797686407325_1_alg».proof.Proof.Gen.ReferenceIdeal.Read
import proofs.«105608_j22797686407325_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- The host lines after the two minima, as one function of them: per row the mean of each array of minima, their
    sum, and the mean over the rows. -/
def tail (M1 M2 : (⟨S64x2048, .f32⟩ : BufTy).Contents (Elt Ideal)) : (⟨S_, .f32⟩ : BufTy).Contents (Elt Ideal) :=
  Host.divf (F := Ideal)
    (Host.reduceAdd (F := Ideal)
      (addf (F := Ideal)
        (Host.divf (F := Ideal)
          (Host.reduceAdd (F := Ideal) M1 (constant (F := Ideal) S_ .f32 0x00000000#32) reducesTo_S64x2048_S64_d1 h_S_)
          (broadcastInDim S64 ![] bcast_S_S64 (constant (F := Ideal) S_ .f32 0x45000000#32)))
        (Host.divf (F := Ideal)
          (Host.reduceAdd (F := Ideal) M2 (constant (F := Ideal) S_ .f32 0x00000000#32) reducesTo_S64x2048_S64_d1 h_S_)
          (broadcastInDim S64 ![] bcast_S_S64 (constant (F := Ideal) S_ .f32 0x45000000#32))))
      (constant (F := Ideal) S_ .f32 0x00000000#32) reducesTo_S64_S_d0 h_S_)
    (constant (F := Ideal) S_ .f32 0x42800000#32)

/-- The reference's result is the tail of its two arrays of minima. -/
theorem result_tail (x0 x1 : (⟨S64x4096, .f32⟩ : BufTy).Contents (Elt Ideal)) :
    val_main_v36 (F := Ideal) x0 x1 = tail (val_main_v26 (F := Ideal) x0 x1) (val_main_v30 (F := Ideal) x0 x1) := by
  unfold val_main_v36 val_main_v35 val_main_v34 val_main_v29 val_main_v33 val_main_v27 val_main_v31 val_main_v28 val_main_v32
    val_main_cst_4 val_main_cst_5 val_main_cst_7 val_main_cst_8 val_main_cst_9 val_main_cst_10 tail
  rfl

/-! ## The cost array, read at an index -/

/-- Two unit-width pieces joined on the last axis: position 0 reads the first piece … -/
theorem concat_at0 (A B : (⟨S64x2048x1, .f32⟩ : BufTy).Contents (Elt Ideal)) (b : Fin 64) (i : Fin 2048) :
    concatenate S64x2048x2 2 [⟨S64x2048x1, A⟩, ⟨S64x2048x1, B⟩] concatenates_S64x2048x1_S64x2048x1_S64x2048x2_d2
        (ix3 b i (0 : Fin 2)) = A (ix3 b i (0 : Fin 1)) :=
  concatenate_pair_apply_left _ A B _ (ix3 b i (0 : Fin 2)) rfl (ix3 b i (0 : Fin 1)) (fun c => by
    match c with
    | ⟨0, _⟩ => rfl
    | ⟨1, _⟩ => rfl
    | ⟨2, _⟩ => rfl)

/-- … and position 1 reads the second. -/
theorem concat_at1 (A B : (⟨S64x2048x1, .f32⟩ : BufTy).Contents (Elt Ideal)) (b : Fin 64) (i : Fin 2048) :
    concatenate S64x2048x2 2 [⟨S64x2048x1, A⟩, ⟨S64x2048x1, B⟩] concatenates_S64x2048x1_S64x2048x1_S64x2048x2_d2
        (ix3 b i (1 : Fin 2)) = B (ix3 b i (0 : Fin 1)) :=
  concatenate_pair_apply_right _ A B _ (ix3 b i (1 : Fin 2)) rfl rfl (ix3 b i (0 : Fin 1)) (fun c hc => by
    match c, hc with
    | ⟨0, _⟩, _ => rfl
    | ⟨1, _⟩, _ => rfl
    | ⟨2, _⟩, hc => exact absurd rfl hc) rfl

/-- Token i of row b of the first argument: its first feature is the entry at column i … -/
theorem v4_at0 (x0 : (⟨S64x4096, .f32⟩ : BufTy).Contents (Elt Ideal)) (b : Fin 64) (i : Fin 2048) :
    val_main_v4 (F := Ideal) x0 (ix3 b i (0 : Fin 2)) = x0 (ix2 b (Cert.Chamfer.lo i)) := by
  unfold val_main_v4
  refine (concat_at0 _ _ b i).trans ?_
  rw [val_main_v2_apply, val_main_v0_apply]
  exact congrArg x0 (funext fun a => by match a with | ⟨0, _⟩ => rfl | ⟨1, _⟩ => rfl)

/-- … and its second the entry at column 2048 + i. -/
theorem v4_at1 (x0 : (⟨S64x4096, .f32⟩ : BufTy).Contents (Elt Ideal)) (b : Fin 64) (i : Fin 2048) :
    val_main_v4 (F := Ideal) x0 (ix3 b i (1 : Fin 2)) = x0 (ix2 b (Cert.Chamfer.hi i)) := by
  unfold val_main_v4
  refine (concat_at1 _ _ b i).trans ?_
  rw [val_main_v3_apply, val_main_v1_apply]
  exact congrArg x0 (funext fun a => by match a with | ⟨0, _⟩ => rfl | ⟨1, _⟩ => rfl)

/-- The same for the second argument. -/
theorem v9_at0 (x1 : (⟨S64x4096, .f32⟩ : BufTy).Contents (Elt Ideal)) (b : Fin 64) (i : Fin 2048) :
    val_main_v9 (F := Ideal) x1 (ix3 b i (0 : Fin 2)) = x1 (ix2 b (Cert.Chamfer.lo i)) := by
  unfold val_main_v9
  refine (concat_at0 _ _ b i).trans ?_
  rw [val_main_v7_apply, val_main_v5_apply]
  exact congrArg x1 (funext fun a => by match a with | ⟨0, _⟩ => rfl | ⟨1, _⟩ => rfl)

theorem v9_at1 (x1 : (⟨S64x4096, .f32⟩ : BufTy).Contents (Elt Ideal)) (b : Fin 64) (i : Fin 2048) :
    val_main_v9 (F := Ideal) x1 (ix3 b i (1 : Fin 2)) = x1 (ix2 b (Cert.Chamfer.hi i)) := by
  unfold val_main_v9
  refine (concat_at1 _ _ b i).trans ?_
  rw [val_main_v8_apply, val_main_v6_apply]
  exact congrArg x1 (funext fun a => by match a with | ⟨0, _⟩ => rfl | ⟨1, _⟩ => rfl)

/-- The squared norm of token i of row b of the first argument. -/
theorem v11_at (x0 : (⟨S64x4096, .f32⟩ : BufTy).Contents (Elt Ideal)) (b : Fin 64) (i : Fin 2048) :
    val_main_v11 (F := Ideal) x0 (ix2 b i)
      = x0 (ix2 b (Cert.Chamfer.lo i)) * x0 (ix2 b (Cert.Chamfer.lo i))
        + x0 (ix2 b (Cert.Chamfer.hi i)) * x0 (ix2 b (Cert.Chamfer.hi i)) := by
  rw [val_main_v11_apply, val_main_cst_apply, Fin.sum_univ_two, val_main_v10_apply, val_main_v10_apply,
    show idx_main_v11 (ix2 b i) (0 : Fin 2) = ix3 b i (0 : Fin 2) from
      funext fun a => by match a with | ⟨0, _⟩ => rfl | ⟨1, _⟩ => rfl | ⟨2, _⟩ => rfl,
    show idx_main_v11 (ix2 b i) (1 : Fin 2) = ix3 b i (1 : Fin 2) from
      funext fun a => by match a with | ⟨0, _⟩ => rfl | ⟨1, _⟩ => rfl | ⟨2, _⟩ => rfl,
    v4_at0, v4_at1]
  simp only [Ideal.ofBits_def, Ideal.ofBits_zero_f32, zero_add, Ideal.mulf_def]

/-- The squared norm of token j of row b of the second argument. -/
theorem v13_at (x1 : (⟨S64x4096, .f32⟩ : BufTy).Contents (Elt Ideal)) (b : Fin 64) (j : Fin 2048) :
    val_main_v13 (F := Ideal) x1 (ix2 b j)
      = x1 (ix2 b (Cert.Chamfer.lo j)) * x1 (ix2 b (Cert.Chamfer.lo j))
        + x1 (ix2 b (Cert.Chamfer.hi j)) * x1 (ix2 b (Cert.Chamfer.hi j)) := by
  rw [val_main_v13_apply, val_main_cst_0_apply, Fin.sum_univ_two, val_main_v12_apply, val_main_v12_apply,
    show idx_main_v13 (ix2 b j) (0 : Fin 2) = ix3 b j (0 : Fin 2) from
      funext fun a => by match a with | ⟨0, _⟩ => rfl | ⟨1, _⟩ => rfl | ⟨2, _⟩ => rfl,
    show idx_main_v13 (ix2 b j) (1 : Fin 2) = ix3 b j (1 : Fin 2) from
      funext fun a => by match a with | ⟨0, _⟩ => rfl | ⟨1, _⟩ => rfl | ⟨2, _⟩ => rfl,
    v9_at0, v9_at1]
  simp only [Ideal.ofBits_def, Ideal.ofBits_zero_f32, zero_add, Ideal.mulf_def]

/-- The inner product of token i of the first argument's row b and token j of the second's. -/
theorem v14_at (x0 x1 : (⟨S64x4096, .f32⟩ : BufTy).Contents (Elt Ideal)) (b : Fin 64) (i j : Fin 2048) :
    val_main_v14 (F := Ideal) x0 x1 (ix3 b i j)
      = x0 (ix2 b (Cert.Chamfer.lo i)) * x1 (ix2 b (Cert.Chamfer.lo j))
        + x0 (ix2 b (Cert.Chamfer.hi i)) * x1 (ix2 b (Cert.Chamfer.hi j)) := by
  rw [val_main_v14_apply, Fin.sum_univ_two,
    show lidx_main_v14 (ix3 b i j) (0 : Fin 2) = ix3 b i (0 : Fin 2) from
      funext fun a => by match a with | ⟨0, _⟩ => rfl | ⟨1, _⟩ => rfl | ⟨2, _⟩ => rfl,
    show lidx_main_v14 (ix3 b i j) (1 : Fin 2) = ix3 b i (1 : Fin 2) from
      funext fun a => by match a with | ⟨0, _⟩ => rfl | ⟨1, _⟩ => rfl | ⟨2, _⟩ => rfl,
    show ridx_main_v14 (ix3 b i j) (0 : Fin 2) = ix3 b j (0 : Fin 2) from
      funext fun a => by match a with | ⟨0, _⟩ => rfl | ⟨1, _⟩ => rfl | ⟨2, _⟩ => rfl,
    show ridx_main_v14 (ix3 b i j) (1 : Fin 2) = ix3 b j (1 : Fin 2) from
      funext fun a => by match a with | ⟨0, _⟩ => rfl | ⟨1, _⟩ => rfl | ⟨2, _⟩ => rfl,
    v4_at0, v4_at1, v9_at0, v9_at1]

/-- The cost array at (b, i, j) is the cost between token i of the first argument's row b and token j of the
    second's. -/
theorem cost_at (x0 x1 : (⟨S64x4096, .f32⟩ : BufTy).Contents (Elt Ideal)) (b : Fin 64) (i j : Fin 2048) :
    val_main_v25 (F := Ideal) x0 x1 (ix3 b i j) = Cert.Chamfer.cost x0 x1 b i j := by
  rw [val_main_v25_apply, val_main_v24_apply, val_main_v22_apply, val_main_v19_apply, val_main_v21_apply,
    val_main_v23_apply, val_main_cst_2_apply, val_main_v20_apply, val_main_cst_1_apply,
    val_main_v17_apply, val_main_v15_apply, val_main_v18_apply, val_main_v16_apply,
    show idx_main_v15 (idx_main_v17 (ix3 b i j)) = ix2 b i from
      funext fun a => by match a with | ⟨0, _⟩ => rfl | ⟨1, _⟩ => rfl,
    show idx_main_v16 (idx_main_v18 (ix3 b i j)) = ix2 b j from
      funext fun a => by match a with | ⟨0, _⟩ => rfl | ⟨1, _⟩ => rfl,
    v11_at, v13_at, v14_at]
  simp only [Ideal.hostUnary_sqrt_def, Ideal.maximumf_def, Ideal.subf_def, Ideal.addf_def, Ideal.mulf_def,
    Ideal.ofBits_def]
  rfl

/-! ## The two arrays of minima -/

/-- The first array of minima: at (b, j) the least cost over the tokens i of the first argument's row b. -/
theorem min_first (x0 x1 : (⟨S64x4096, .f32⟩ : BufTy).Contents (Elt Ideal)) :
    val_main_v26 (F := Ideal) x0 x1 = Cert.Chamfer.minOverFirst x0 x1 := by
  funext y
  obtain ⟨b, j, rfl⟩ : ∃ (b : Fin 64) (j : Fin 2048), y = ix2 b j := ⟨y 0, y 1, eq_ix2 y⟩
  have h : S64x2048x2048.Reduces [1] S64x2048 := by decide
  unfold val_main_v26
  refine (Host.reduce_eq_fold_single _ _ _ reducesTo_S64x2048x2048_S64x2048_d1 h h_S_ (ix2 b j)).trans ?_
  rw [val_main_cst_3_apply]
  show (Finset.univ : Finset (Fin 2048)).fold min (Ideal.ofBits .f32 0x7F800000#32)
      (val_main_v25 (F := Ideal) x0 x1 ∘ h.lift (ix2 b j)) = _
  rw [Cert.Chamfer.ofBits_inf]
  refine (Cert.Chamfer.fold_min_top _ _).trans ?_
  unfold Cert.Chamfer.minOverFirst
  refine Finset.inf_congr rfl fun k _ => ?_
  show val_main_v25 (F := Ideal) x0 x1 (h.lift (ix2 b j) k) = Cert.Chamfer.cost x0 x1 b k j
  rw [show h.lift (ix2 b j) k = ix3 b k j from
    funext fun a => Fin.ext (by match a with | ⟨0, _⟩ => rfl | ⟨1, _⟩ => rfl | ⟨2, _⟩ => rfl)]
  exact cost_at x0 x1 b k j

/-- The second array of minima: at (b, i) the least cost over the tokens j of the second argument's row b. -/
theorem min_second (x0 x1 : (⟨S64x4096, .f32⟩ : BufTy).Contents (Elt Ideal)) :
    val_main_v30 (F := Ideal) x0 x1 = Cert.Chamfer.minOverSecond x0 x1 := by
  funext y
  obtain ⟨b, i, rfl⟩ : ∃ (b : Fin 64) (i : Fin 2048), y = ix2 b i := ⟨y 0, y 1, eq_ix2 y⟩
  have h : S64x2048x2048.Reduces [2] S64x2048 := by decide
  unfold val_main_v30
  refine (Host.reduce_eq_fold_single _ _ _ reducesTo_S64x2048x2048_S64x2048_d2 h h_S_ (ix2 b i)).trans ?_
  rw [val_main_cst_6_apply]
  show (Finset.univ : Finset (Fin 2048)).fold min (Ideal.ofBits .f32 0x7F800000#32)
      (val_main_v25 (F := Ideal) x0 x1 ∘ h.lift (ix2 b i)) = _
  rw [Cert.Chamfer.ofBits_inf]
  refine (Cert.Chamfer.fold_min_top _ _).trans ?_
  unfold Cert.Chamfer.minOverSecond
  refine Finset.inf_congr rfl fun k _ => ?_
  show val_main_v25 (F := Ideal) x0 x1 (h.lift (ix2 b i) k) = Cert.Chamfer.cost x0 x1 b i k
  rw [show h.lift (ix2 b i) k = ix3 b i k from
    funext fun a => Fin.ext (by match a with | ⟨0, _⟩ => rfl | ⟨1, _⟩ => rfl | ⟨2, _⟩ => rfl)]
  exact cost_at x0 x1 b i k

/-- The reference's result: the tail of the two arrays of minima of the cost. -/
theorem result_eq (x0 x1 : (⟨S64x4096, .f32⟩ : BufTy).Contents (Elt Ideal)) :
    val_main_v36 (F := Ideal) x0 x1
      = tail (Cert.Chamfer.minOverFirst x0 x1) (Cert.Chamfer.minOverSecond x0 x1) := by
  rw [result_tail, min_first, min_second]

end Cert.ReferenceIdeal.RefValue

end
-- ==== Proof.lean ====
/-
  The Chamfer distance kernel against its jnp reference, over the extended reals.

  Both programs compute, for every row b of two 64 × 4096 arrays read as 2048 two-feature tokens each, the pair costs
  sqrt(max((|p_i|² + |t_j|²) − 2·⟨p_i, t_j⟩, 0)), the minimum over i for every j and the minimum over j for every i,
  the means of both over the tokens, their sum, and its mean over the rows. The reference takes the two minima of the
  whole 64 × 2048 × 2048 cost array; the kernel tiles it into 16 × 256 × 256 pieces over a (4, 8, 8) grid and keeps two
  running minima from +∞. A minimum of minima over the tiles of a set is the minimum over the set, with no condition on
  the values (⊤ is the identity of `min` on the extended reals), so the two arrays of minima agree index by index, and
  the host lines after them are the same function in both programs. The precondition is not used.

  The three frames: the kernel's two programs through the body's triple at each of its three control cases (both resets,
  the first only, none) and the library's pipeline launch; the reference's from its run.
-/
import proofs.«105608_j22797686407325_1_alg».proof.Defs
import proofs.«105608_j22797686407325_1_alg».proof.Proof.Gen.Kernel
import proofs.«105608_j22797686407325_1_alg».proof.Proof.Gen.KernelIdeal
import proofs.«105608_j22797686407325_1_alg».proof.Proof.Gen.ReferenceIdeal
import proofs.«105608_j22797686407325_1_alg».proof.Proof.Gen.Pre_finite_inputs
import proofs.«105608_j22797686407325_1_alg».proof.Proof.Gen.ReferenceIdeal.Run
import proofs.«105608_j22797686407325_1_alg».proof.Proof.Gen.ReferenceIdeal.Read
import proofs.«105608_j22797686407325_1_alg».proof.Proof.K.Frame
import proofs.«105608_j22797686407325_1_alg».proof.Proof.KI.Frame
import proofs.«105608_j22797686407325_1_alg».proof.Proof.KIRun
import proofs.«105608_j22797686407325_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame (F := Bits) m ρ

/-- The idealized kernel program runs and keeps its arguments. -/
theorem frame_ki : Cert.frame_KernelIdeal := fun m ρ _ => Cert.KernelIdeal.Hand.frame (F := Ideal) m ρ

/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The host lines after the two minima are one function in both programs. -/
theorem tail_eq (M1 M2 : Cert.Chamfer.SMin.Idx → EReal) :
    Cert.KernelIdeal.KRun.tailK M1 M2 = Cert.ReferenceIdeal.RefValue.tail M1 M2 := rfl

/-- From memories agreeing on the arguments both idealized programs end at the host lines' function of the two minima
    of the specification. -/
theorem algebraic : Cert.algebraic_KernelIdeal_ReferenceIdeal := by
  intro m ρ m' ρ' _ hagree
  refine ⟨fun c => Cert.ReferenceIdeal.RefValue.tail
      (Cert.Chamfer.minOverFirst (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.Chamfer.minOverSecond (m ((c.tc : Thread Cert.KernelIdeal.nD Cert.KernelIdeal.τ).loc Cert.KernelIdeal.main_arg0)) (m ((c.tc : Thread Cert.KernelIdeal.nD Cert.KernelIdeal.τ).loc Cert.KernelIdeal.main_arg1))),
    ?_, ?_⟩
  · exact (θ_run Cert.KernelIdeal.defs _ _).mono (fun _ h c => ⟨(h c).1.trans (tail_eq _ _), (h c).2⟩)
      (Cert.KernelIdeal.KRun.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v36_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
